-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x512 : Shape := ⟨2, ![5000, 512]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 82
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S100000x128, .f32⟩
  | .hbm, ⟨64, _⟩ => ⟨S100000x64, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x64, .f32⟩
  | .hbm, ⟨74, _⟩ => ⟨S1700000x1, .f32⟩
  | .hbm, ⟨75, _⟩ => ⟨S1700000x64, .f32⟩
  | .hbm, ⟨76, _⟩ => ⟨S1700000x64, .f32⟩
  | .hbm, ⟨77, _⟩ => ⟨S_, .f32⟩
  | .hbm, ⟨78, _⟩ => ⟨S100000x64, .f32⟩
  | .hbm, ⟨79, _⟩ => ⟨S1700000x1, .i32⟩
  | .hbm, ⟨80, _⟩ => ⟨S100000x64, .f32⟩
  | .hbm, ⟨81, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x512_S512x128_S5000x128_1_0_0_1_n_n_wf : DotDims.WF S5000x512 S512x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x64, .f32⟩
  | .hbm, ⟨103, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  What each of the four dense passes computes, as one function of whole arrays, index by index, on the extended reals.
  A graph-convolution layer is "transform, aggregate, then a row-wise pass"; the transform and the row-wise pass are the
  dense parts, and this file states them:
  * `dense1`, `dense2`: row `r` of a matrix product, entry `(r, q) = ∑ₖ x (r, k) · w (k, q)`;
  * `biasRelu`: entry `(r, q) = max (a (r, q) + b q) 0`;
  * `biasLogSoftmax`: with `z (r, q) = a (r, q) + b q` and `μ r` the largest entry of row `r` of `z` (the fold of
    `max` from `-∞`), entry `(r, q) = (z (r, q) - μ r) - log (∑_{q'} exp (z (r, q') - μ r))`.
  No program is imported here: the shapes are written out.
-/
import Idealize.ShloMosaic.PureOps.Ideal
import Idealize.ShloMosaic.Lib.ValueIdx

noncomputable section

open scoped BigOperators

namespace Cert.Spec

open Idealize.ShloMosaic Idealize.ShloMosaic.ValueIdx

/-- The first transform: `x · w` for `x : [100000, 512]`, `w : [512, 128]`. -/
def dense1 (x : FVec Ideal ⟨2, ![100000, 512]⟩ .f32) (w : FVec Ideal ⟨2, ![512, 128]⟩ .f32) :
    FVec Ideal ⟨2, ![100000, 128]⟩ .f32 :=
  fun i => ∑ k : Fin 512, x (ix2 (n0 := 100000) (n1 := 512) (i 0) k) * w (ix2 (n0 := 512) (n1 := 128) k (i 1))

/-- The second transform: `x · w` for `x : [100000, 128]`, `w : [128, 64]`. -/
def dense2 (x : FVec Ideal ⟨2, ![100000, 128]⟩ .f32) (w : FVec Ideal ⟨2, ![128, 64]⟩ .f32) :
    FVec Ideal ⟨2, ![100000, 64]⟩ .f32 :=
  fun i => ∑ k : Fin 128, x (ix2 (n0 := 100000) (n1 := 128) (i 0) k) * w (ix2 (n0 := 128) (n1 := 64) k (i 1))

/-- Bias, then the positive part. -/
def biasRelu (a : FVec Ideal ⟨2, ![100000, 128]⟩ .f32) (b : FVec Ideal ⟨1, ![128]⟩ .f32) :
    FVec Ideal ⟨2, ![100000, 128]⟩ .f32 :=
  fun i => max (a i + b (ix1 (n := 128) (i 1))) (Ideal.ofBits .f32 0x00000000#32)

/-- Row `r` of `a + b`, entry `q`. -/
def biased (a : FVec Ideal ⟨2, ![100000, 64]⟩ .f32) (b : FVec Ideal ⟨1, ![64]⟩ .f32) (r : Fin 100000) (q : Fin 64) : EReal :=
  a (ix2 (n0 := 100000) (n1 := 64) r q) + b (ix1 (n := 64) q)

/-- The largest entry of row `r` of `a + b`: the fold of `max` over the row from `-∞`. -/
def rowMax (a : FVec Ideal ⟨2, ![100000, 64]⟩ .f32) (b : FVec Ideal ⟨1, ![64]⟩ .f32) (r : Fin 100000) : EReal :=
  (Finset.univ : Finset (Fin 64)).fold max (Ideal.ofBits .f32 0xFF800000#32) (biased a b r)

/-- Bias, then the row-wise log-softmax, shifted by the row's maximum. -/
def biasLogSoftmax (a : FVec Ideal ⟨2, ![100000, 64]⟩ .f32) (b : FVec Ideal ⟨1, ![64]⟩ .f32) :
    FVec Ideal ⟨2, ![100000, 64]⟩ .f32 :=
  fun i => (biased a b (i 0) (i 1) - rowMax a b (i 0))
    - Ideal.log (∑ q : Fin 64, Ideal.exp (biased a b (i 0) q - rowMax a b (i 0)))

end Cert.Spec

end
-- ==== Proof.Region0.lean ====
import proofs.«131749_j69277822484763_1_alg».proof.Proof.Gen.KernelIdeal.Frame
import proofs.«131749_j69277822484763_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The block product at an index -/

/-- The zero offsets of a whole-block access. -/
theorem zero_off : (![0, 0] : Fin 2 → Nat) = fun _ => 0 := funext fun a => by fin_cases a <;> rfl

/-- The left factor is read at the output's row. -/
theorem lhs_axis0 (j : S5000x128.Idx) (q : dot_S5000x512_S512x128_S5000x128_1_0_0_1_n_n.contr.Idx) :
    (dot_S5000x512_S512x128_S5000x128_1_0_0_1_n_n.lhsIdx j q 0).val = (j 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
/-- The left factor is read at the contraction's coordinate along its columns. -/
theorem lhs_axis1 (j : S5000x128.Idx) (q : dot_S5000x512_S512x128_S5000x128_1_0_0_1_n_n.contr.Idx) :
    (dot_S5000x512_S512x128_S5000x128_1_0_0_1_n_n.lhsIdx j q 1).val = (q ⟨0, by decide⟩).val :=
  dot_S5000x512_S512x128_S5000x128_1_0_0_1_n_n.lhsIdx_val_of_single rfl j q
/-- The right factor is read at the contraction's coordinate along its rows. -/
theorem rhs_axis0 (j : S5000x128.Idx) (q : dot_S5000x512_S512x128_S5000x128_1_0_0_1_n_n.contr.Idx) :
    (dot_S5000x512_S512x128_S5000x128_1_0_0_1_n_n.rhsIdx j q 0).val = (q ⟨0, by decide⟩).val :=
  dot_S5000x512_S512x128_S5000x128_1_0_0_1_n_n.rhsIdx_val_of_single rfl j q
/-- The right factor is read at the output's column. -/
theorem rhs_axis1 (j : S5000x128.Idx) (q : dot_S5000x512_S512x128_S5000x128_1_0_0_1_n_n.contr.Idx) :
    (dot_S5000x512_S512x128_S5000x128_1_0_0_1_n_n.rhsIdx j q 1).val = (j 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-- Entry `(p, q)` of the body's product of two blocks: `∑ₖ x0 (p, k) · x1 (k, q)`. A change of format is the identity
    on the extended reals, and the accumulator the product is added to is zero. -/
theorem pay_apply (x0 : Vec Ideal S5000x512 .f32) (x1 : Vec Ideal S512x128 .f32) (p : Fin 5000) (q : Fin 128) :
    k0_pay1 x0 x1 (ix2 p q) = ∑ k : Fin 512, x0 (ix2 (n0 := 5000) (n1 := 512) p k) * x1 (ix2 (n0 := 512) (n1 := 128) k q) := by
  unfold k0_pay1
  simp only [matmul]
  rw [Ideal.matmul_constant_zero_apply, ← Equiv.sum_comp (contrEquiv1 dot_S5000x512_S512x128_S5000x128_1_0_0_1_n_n 512 rfl rfl).symm]
  refine Finset.sum_congr rfl fun k _ => ?_
  have hk := contrEquiv1_symm_val dot_S5000x512_S512x128_S5000x128_1_0_0_1_n_n 512 rfl rfl k
  have el : dot_S5000x512_S512x128_S5000x128_1_0_0_1_n_n.lhsIdx (ix2 p q) ((contrEquiv1 dot_S5000x512_S512x128_S5000x128_1_0_0_1_n_n 512 rfl rfl).symm k) = ix2 (n0 := 5000) (n1 := 512) p k := funext fun a => Fin.ext (by
    match a with
    | ⟨0, _⟩ => exact lhs_axis0 _ _
    | ⟨1, _⟩ => exact (lhs_axis1 _ _).trans hk)
  have er : dot_S5000x512_S512x128_S5000x128_1_0_0_1_n_n.rhsIdx (ix2 p q) ((contrEquiv1 dot_S5000x512_S512x128_S5000x128_1_0_0_1_n_n 512 rfl rfl).symm k) = ix2 (n0 := 512) (n1 := 128) k q := funext fun a => Fin.ext (by
    match a with
    | ⟨0, _⟩ => exact (rhs_axis0 _ _).trans hk
    | ⟨1, _⟩ => exact rhs_axis1 _ _)
  rw [el, er]
  rfl

/-- The same at any index of the block, by its coordinates. -/
theorem pay_entry (x0 : Vec Ideal S5000x512 .f32) (x1 : Vec Ideal S512x128 .f32) (j : S5000x128.Idx) :
    k0_pay1 x0 x1 j = ∑ k : Fin 512, x0 (ix2 (n0 := 5000) (n1 := 512) (j 0) k) * x1 (ix2 (n0 := 512) (n1 := 128) k (j 1)) := by
  obtain ⟨p, q, rfl⟩ : ∃ (p : Fin 5000) (q : Fin 128), j = ix2 p q := ⟨j 0, j 1, eq_ix2 j⟩
  exact pay_apply x0 x1 p q

/-! ## From blocks to the array -/

/-- The printed index maps over the grid: the row blocks of the left factor and of the output move together, block `t`
    at point `t`; the right factor is its one whole block at every point. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the two arrays as the region finds them. -/
theorem flushed_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (Cert.Spec.dense1 (V c main_arg0) (V c main_arg2)) := by
  show (cfg0.win 2).cut (grid0.coords t) ((dat0 V c).after 2 t) = _
  rw [after0_2]
  unfold out0_2
  rw [View.canon_unit_zero zero_off]
  simp only [View.ld_unit_zero (S := S5000x512) zero_off, View.ld_unit_zero (S := S512x128) zero_off]
  obtain ⟨e00, e01, e10, e11, e20, e21⟩ := idx_facts t
  funext j
  show k0_pay1 (iblk0 V c 0 t) (iblk0 V c 1 t) j = Cert.Spec.dense1 (V c main_arg0) (V c main_arg2) (((cfg0.win 2).blk t).view.emb j)
  refine (pay_entry _ _ j).trans ?_
  -- both sides are sums over the contraction's coordinate: the block's row is the array's row read through block `t`
  refine Finset.sum_congr rfl fun k _ => ?_
  have h0 : ((cfg0.win 0).blk t).view.emb (ix2 (n0 := 5000) (n1 := 512) (j 0) k) = ix2 (n0 := 100000) (n1 := 512) ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have h1 : ((cfg0.win 1).blk t).view.emb (ix2 (n0 := 512) (n1 := 128) k (j 1)) = ix2 (n0 := 512) (n1 := 128) k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) (congrArg (V c main_arg0) h0) (congrArg (V c main_arg2) h1)

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the array is in some point's block: row `r` lies in the block of point `r / 5000`. -/
theorem cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 20 := N_0
  refine ⟨⟨(i 0).val / 5000, by rw [hN]; omega⟩, flush0_2 _, ?_⟩
  rw [mem_blk]
  obtain ⟨e00, e01, e10, e11, e20, e21⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e20]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e21]; omega

/-- The array region 0 leaves in its output window, whatever the contents `V` it is entered at. -/
theorem final (V : (c : Dev nD) → (b : Ref sig .tc) → Buf (Elt Ideal) ((c : Thread nD τ).loc b)) (c : Dev nD) :
    (dat0 (F := Ideal) V c).arrAt 2 cfg0.N = Cert.Spec.dense1 (V c main_arg0) (V c main_arg2) :=
  (dat0 V c).arrAt_eq_of_cover 2 (Cert.Spec.dense1 (V c main_arg0) (V c main_arg2)) (fun t _ => flushed_eq V c t) cover

end Cert.Region0

end
-- ==== Proof.Region1.lean ====
import proofs.«131749_j69277822484763_1_alg».proof.Proof.Gen.KernelIdeal.Frame
import proofs.«131749_j69277822484763_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The body's arithmetic at a pair of coordinates: the block's entry plus the bias of its column, then the positive part. -/
theorem pay_apply (b : Vec Ideal S128 .f32) (x : Vec Ideal S5000x128 .f32) (p : Fin 5000) (q : Fin 128) :
    k1_pay1 b x (ix2 p q) = max (x (ix2 p q) + b (ix1 q)) (Ideal.ofBits .f32 0x00000000#32) := by
  unfold k1_pay1
  rw [maximumf_apply, addf_apply, broadcast_apply, shapeCast_self, broadcastTo_1b_ab_apply, shapeCast_a_1a_apply]
  rfl

/-- The same at any index of the block: the bias is read at the index's column. -/
theorem pay_at (b : Vec Ideal S128 .f32) (x : Vec Ideal S5000x128 .f32) (j : S5000x128.Idx) :
    k1_pay1 b x j = max (x j + b (ix1 (j 1))) (Ideal.ofBits .f32 0x00000000#32) := by
  obtain ⟨p, q, rfl⟩ : ∃ (p : Fin 5000) (q : Fin 128), j = ix2 p q := ⟨j 0, j 1, eq_ix2 j⟩
  exact pay_apply b x p q

/-- The offsets of a whole two-axis block are all zero. -/
theorem zeros2 : (![0, 0] : Fin 2 → Nat) = fun _ => 0 := funext fun a => by fin_cases a <;> rfl

/-- The offset of a whole one-axis block is zero. -/
theorem zeros1 : (![0] : Fin 1 → Nat) = fun _ => 0 := funext fun a => by fin_cases a <;> rfl

/-- The printed index maps over the grid: the input block and the output block are both block `t` of the rows and the
    one block of the columns; the bias window is the whole bias. -/
theorem idx_facts : ∀ t : Fin cfg1.N, win1_0.index t (0 : Fin 2) = t.val ∧ win1_0.index t (1 : Fin 2) = 0
    ∧ win1_2.index t (0 : Fin 2) = t.val ∧ win1_2.index t (1 : Fin 2) = 0
    ∧ win1_1.index t (0 : Fin 1) = 0 :=
  (by decide +kernel : ∀ t : Fin grid1.N, _)

/-- At an index `j` of a block whose entry there is the array's at `i`, and whose bias at `j`'s column is the bias at
    `i`'s column, the body's arithmetic is the specification's at `i`. -/
theorem pay_eq_spec (a : FVec Ideal S100000x128 .f32) (b : FVec Ideal S128 .f32) (x : Vec Ideal S5000x128 .f32)
    (y : Vec Ideal S128 .f32) (j : S5000x128.Idx) (i : S100000x128.Idx) (hx : x j = a i)
    (hy : y (ix1 (j 1)) = b (ix1 (i 1))) : k1_pay1 y x j = Cert.Spec.biasRelu a b i := by
  rw [pay_at, hx, hy]
  rfl

/-- What point `t` writes back is block `t` of the specification's array. -/
theorem flushed_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Spec.biasRelu (V c main_v43) (V c main_arg3)) := by
  show (cfg1.win 2).cut (grid1.coords t) ((dat1 V c).after 2 t) = _
  rw [after1_2]
  unfold out1_2
  rw [View.canon_unit_zero zeros2]
  simp only [View.ld_unit_zero (S := S5000x128) zeros2, View.ld_unit_zero (S := S128) zeros1]
  obtain ⟨e0, e1, e2, e3, e4⟩ := idx_facts t
  funext j
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix1 (j 1)) = ix1 ((((cfg1.win 2).blk t).view.emb j) 1) := by
    funext a; apply Fin.ext
    match a with
    | ⟨0, _⟩ => show win1_1.index t (0 : Fin 1) * 128 + 1 * (j 1).val = win1_2.index t (1 : Fin 2) * 128 + 1 * (j 1).val; omega
  refine pay_eq_spec (V c main_v43) (V c main_arg3) (iblk1 V c 0 t) (iblk1 V c 1 t) j (((cfg1.win 2).blk t).view.emb j) ?_ ?_
  · show V c main_v43 (((cfg1.win 0).blk t).view.emb j) = V c main_v43 (((cfg1.win 2).blk t).view.emb j)
    exact congrArg (V c main_v43) h0
  · show V c main_arg3 (((cfg1.win 1).blk t).view.emb (ix1 (j 1))) = V c main_arg3 (ix1 ((((cfg1.win 2).blk t).view.emb j) 1))
    exact congrArg (V c main_arg3) h1

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Every index of the array lies in the block of the point its row falls in. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_2 _, ?_⟩
  rw [mem_blk]
  obtain ⟨e0, e1, e2, e3, e4⟩ := idx_facts ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e2]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e3]; omega

/-- The array region 1 leaves in its output window, whatever the contents `V` it is entered at. -/
theorem final (V : (c : Dev nD) → (b : Ref sig .tc) → Buf (Elt Ideal) ((c : Thread nD τ).loc b)) (c : Dev nD) :
    (dat1 (F := Ideal) V c).arrAt 2 cfg1.N = Cert.Spec.biasRelu (V c main_v43) (V c main_arg3) :=
  (dat1 V c).arrAt_eq_of_cover 2 (Cert.Spec.biasRelu (V c main_v43) (V c main_arg3)) (fun t _ => flushed_eq V c t) cover

end Cert.Region1

end
-- ==== Proof.Region2.lean ====
import proofs.«131749_j69277822484763_1_alg».proof.Proof.Gen.KernelIdeal.Frame
import proofs.«131749_j69277822484763_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The block product at an index -/

/-- The left operand's index on its free axis is the output row. -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's index on its contracted axis is the contraction coordinate. -/
theorem lhs_contr (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's index on its contracted axis is the contraction coordinate. -/
theorem rhs_contr (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's index on its free axis is the output column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's arithmetic on a row block `x0 : [5000, 128]` and the whole weight `x1 : [128, 64]`: the cast to the
    same shape and the two format changes are the identity on the extended reals, and the product into the zero
    accumulator is, at `(p, q)`, the sum over the contracted coordinate `k` of `x0 (p, k) · x1 (k, q)`. -/
theorem pay_apply (x0 : FVec Ideal S5000x128 .f32) (x1 : FVec Ideal S128x64 .f32) (p : Fin 5000) (q : Fin 64) :
    k2_pay1 (F := Ideal) x0 x1 (ix2 p q) = ∑ k : Fin 128, x0 (ix2 p k) * x1 (ix2 k q) := by
  unfold k2_pay1
  rw [shapeCast_self]
  show FloatOps.matmul dot_S5000x128_S128x64_S5000x64_1_0_0_1_n_n none (truncf .bf16 x0 bitsLt_bf16_f32) (truncf .bf16 x1 bitsLt_bf16_f32) (constant S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_contr _ _).trans hk
    | ⟨1, _⟩ => exact rhs_col _ _)
  rw [el, er]
  rfl

/-! ## Blocks -/

theorem zero_offsets : (![0, 0] : Fin 2 → Nat) = fun _ => 0 := funext fun a => by fin_cases a <;> rfl

/-- The body's arithmetic on a row block and the whole weight, as one function of the block's index. -/
theorem pay_eq (x0 : FVec Ideal S5000x128 .f32) (x1 : FVec Ideal S128x64 .f32) :
    k2_pay1 (F := Ideal) x0 x1 = fun j => ∑ k : Fin 128, x0 (ix2 (j 0) k) * x1 (ix2 k (j 1)) := by
  funext j
  obtain ⟨p, q, rfl⟩ : ∃ (p : Fin 5000) (q : Fin 64), j = ix2 p q := ⟨j 0, j 1, eq_ix2 j⟩
  exact pay_apply x0 x1 p q

/-- The printed index maps, decided over the grid: the row-block windows (the left operand's and the output's) sit at
    block `t` on the row axis and block `0` on the other; the weight's window is the whole array. -/
theorem idx_facts : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Row block `t` of the product is the product of row block `t` of the left operand with the whole weight: the sum
    over the contracted coordinate is the same sum, the row read through the block. -/
theorem block_product (X : FVec Ideal S100000x128 .f32) (Wt : FVec Ideal S128x64 .f32) (t : Fin cfg2.N)
    (x0 : FVec Ideal S5000x128 .f32) (x1 : FVec Ideal S128x64 .f32)
    (h0 : x0 = ((cfg2.win 0).blk t).view.read (Elt Ideal) X) (h1 : x1 = ((cfg2.win 1).blk t).view.read (Elt Ideal) Wt) :
    (cfg2.win 2).cut (grid2.coords t) (fun j => ∑ k : Fin 128, x0 (ix2 (j 0) k) * x1 (ix2 k (j 1)))
      = ((cfg2.win 2).blk t).view.read (Elt Ideal) (Cert.Spec.dense2 X Wt) := by
  subst h0 h1
  obtain ⟨e0, e1, e2, e3, e4, e5⟩ := idx_facts t
  funext j
  show (∑ k : Fin 128, X (((cfg2.win 0).blk t).view.emb (ix2 (n0 := 5000) (n1 := 128) ⟨(j 0).val, (j 0).isLt⟩ k)) * Wt (((cfg2.win 1).blk t).view.emb (ix2 (n0 := 128) (n1 := 64) k ⟨(j 1).val, (j 1).isLt⟩)) : EReal)
     = ∑ k : Fin 128, X (ix2 (n0 := 100000) (n1 := 128) ((((cfg2.win 2).blk t).view.emb j) 0) k) * Wt (ix2 (n0 := 128) (n1 := 64) k ((((cfg2.win 2).blk t).view.emb j) 1))
  refine Finset.sum_congr rfl fun k _ => ?_
  have hl : ((cfg2.win 0).blk t).view.emb (ix2 (n0 := 5000) (n1 := 128) ⟨(j 0).val, (j 0).isLt⟩ k)
      = ix2 (n0 := 100000) (n1 := 128) ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hr : ((cfg2.win 1).blk t).view.emb (ix2 (n0 := 128) (n1 := 64) k ⟨(j 1).val, (j 1).isLt⟩)
      = ix2 (n0 := 128) (n1 := 64) k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  rw [hl, hr]

/-- What point `t` writes back is block `t` of the product of the arrays the region is entered at. -/
theorem flushed_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (Cert.Spec.dense2 (V c main_v44) (V c main_arg4)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x64) zero_offsets]
  rw [pay_eq]
  exact block_product (V c main_v44) (V c main_arg4) t _ _ rfl rfl

/-! ## From blocks to the array -/

/-- An index of the array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- Every index of the output lies in some point's block: row `r` in the block of point `r / 5000`, and every point
    writes its block back. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  have hlt : (i 0).val / 5000 < cfg2.N := by rw [hN]; omega
  obtain ⟨-, -, -, -, e4, e5⟩ := idx_facts ⟨(i 0).val / 5000, hlt⟩
  have e4' : win2_2.index ⟨(i 0).val / 5000, hlt⟩ (0 : Fin 2) = (i 0).val / 5000 := e4
  refine ⟨⟨(i 0).val / 5000, hlt⟩, flush2_2 _, ?_⟩
  rw [mem_blk]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    omega
  | ⟨1, _⟩ =>
    show win2_2.index ⟨(i 0).val / 5000, hlt⟩ (1 : Fin 2) * 64 ≤ (i 1).val ∧ (i 1).val < win2_2.index ⟨(i 0).val / 5000, hlt⟩ (1 : Fin 2) * 64 + 64
    omega

/-- The array region 2 leaves in its output window, whatever the contents `V` it is entered at. -/
theorem final (V : (c : Dev nD) → (b : Ref sig .tc) → Buf (Elt Ideal) ((c : Thread nD τ).loc b)) (c : Dev nD) :
    (dat2 (F := Ideal) V c).arrAt 2 cfg2.N = Cert.Spec.dense2 (V c main_v44) (V c main_arg4) := by
  exact (dat2 (F := Ideal) V c).arrAt_eq_of_cover 2 (Cert.Spec.dense2 (V c main_v44) (V c main_arg4)) (fun t _ => flushed_eq V c t) cover

end Cert.Region2

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Region3.lean ====
import proofs.«131749_j69277822484763_1_alg».proof.Proof.Gen.KernelIdeal.Frame
import proofs.«131749_j69277822484763_1_alg».proof.Proof.Spec
import proofs.«131749_j69277822484763_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibKeepdims

/-! ## The body's arithmetic at an index -/

/-- Entry `q` of row `p` of a block plus the bias. -/
def zrow (b : Vec Ideal S64 .f32) (x : Vec Ideal S5000x64 .f32) (p : Fin 5000) (q : Fin 64) : EReal :=
  x (ix2 p q) + b (ix1 q)

/-- The largest entry of row `p` of a block plus the bias: the fold of `max` over the row from `-∞`. -/
def zmax (b : Vec Ideal S64 .f32) (x : Vec Ideal S5000x64 .f32) (p : Fin 5000) : EReal :=
  (Finset.univ : Finset (Fin 64)).fold max (Ideal.ofBits .f32 0xFF800000#32) (zrow b x p)

/-- The block plus the bias, as the body spells it: the bias viewed as one row and repeated down the rows. -/
def zblk (b : Vec Ideal S64 .f32) (x : Vec Ideal S5000x64 .f32) : FVec Ideal S5000x64 .f32 :=
  addf (shapeCast S5000x64 x Facts₀.shapeCasts_S5000x64_S5000x64)
    (broadcastTo S5000x64 (shapeCast S1x64 b Facts₀.shapeCasts_S64_S1x64) Facts₀.broadcasts_S1x64_S5000x64)

theorem zblk_apply (b : Vec Ideal S64 .f32) (x : Vec Ideal S5000x64 .f32) (p : Fin 5000) (q : Fin 64) :
    zblk b x (ix2 p q) = zrow b x p q := by
  unfold zblk zrow
  rw [addf_apply, shapeCast_self, broadcastTo_1b_ab_apply, shapeCast_a_1a_apply]

/-- Reducing along the lanes at row `p` runs over the entries `(p, k)`. -/
theorem lift_row (p : Fin 5000) (k : Fin 64) :
    (Facts₀.reduces_S5000x64_S5000).lift (ix1 p) k = ix2 p k := by
  funext a
  match a with
  | ⟨0, _⟩ => rfl
  | ⟨1, _⟩ => rfl

/-- The lane maximum of a `[5000, 64]` block at row `p` is the fold of `max` over that row from the accumulator's value. -/
theorem laneMax_apply (z : FVec Ideal S5000x64 .f32) (hacc : (0xFF800000#32 : BitVec 32) = 0xFF800000#32) (p : Fin 5000) :
    multiReduction (F := Ideal) .maximumf [1] S5000 z 0xFF800000#32 Facts₀.reduces_S5000x64_S5000 (.inl rfl) hacc (ix1 p)
      = (Finset.univ : Finset (Fin 64)).fold max (Ideal.ofBits .f32 0xFF800000#32) (fun k => z (ix2 p k)) := by
  refine (Ideal.multiReduction_maximumf_single z 0xFF800000#32 Facts₀.reduces_S5000x64_S5000 (.inl rfl) hacc (ix1 p)).trans ?_
  congr 1
  funext k
  exact congrArg z (lift_row p k)

/-- The lane sum of a `[5000, 64]` block at row `p` is the sum over that row. -/
theorem laneSum_apply (z : FVec Ideal S5000x64 .f32) (hacc : (0x00000000#32 : BitVec 32) = 0x00000000#32) (p : Fin 5000) :
    multiReduction (F := Ideal) .add [1] S5000 z 0x00000000#32 Facts₀.reduces_S5000x64_S5000 (.inl rfl) hacc (ix1 p)
      = ∑ k : Fin 64, z (ix2 p k) := by
  refine (Ideal.multiReduction_add_single z 0x00000000#32 Facts₀.reduces_S5000x64_S5000 (.inl rfl) hacc (ix1 p)).trans ?_
  exact Finset.sum_congr rfl fun k _ => congrArg z (lift_row p k)

/-- The block plus the bias with each row's largest entry taken off, as the body spells it: the lane maximum kept
    as a column and repeated along the lanes. -/
def shifted (b : Vec Ideal S64 .f32) (x : Vec Ideal S5000x64 .f32) : FVec Ideal S5000x64 .f32 :=
  subf (zblk b x)
    (broadcastTo S5000x64
      (shapeCast S5000x1
        (multiReduction (F := Ideal) .maximumf [1] S5000 (zblk b x) 0xFF800000#32 Facts₀.reduces_S5000x64_S5000 (.inl rfl) rfl)
        Facts₀.shapeCasts_S5000_S5000x1)
      Facts₀.broadcasts_S5000x1_S5000x64)

theorem shifted_apply (b : Vec Ideal S64 .f32) (x : Vec Ideal S5000x64 .f32) (p : Fin 5000) (q : Fin 64) :
    shifted b x (ix2 p q) = zrow b x p q - zmax b x p := by
  unfold shifted
  rw [subf_apply, zblk_apply, broadcastTo_a1_ab_apply, shapeCast_a_a1_apply, laneMax_apply]
  unfold zmax
  congr 2
  funext k
  exact zblk_apply b x p k

/-- The body's arithmetic is the shifted block less the logarithm of each row's sum of exponentials, that sum kept as a
    column and repeated along the lanes. -/
theorem pay_eq (b : Vec Ideal S64 .f32) (x : Vec Ideal S5000x64 .f32) :
    k3_pay1 b x = subf (shifted b x)
      (broadcastTo S5000x64
        (log (shapeCast S5000x1
          (multiReduction (F := Ideal) .add [1] S5000 (exp (shifted b x)) 0x00000000#32 Facts₀.reduces_S5000x64_S5000 (.inl rfl) rfl)
          Facts₀.shapeCasts_S5000_S5000x1))
        Facts₀.broadcasts_S5000x1_S5000x64) := rfl

/-- THE BODY AT AN INDEX: entry `(p, q)` of what the body stores is the shifted entry less the logarithm of the row's
    sum of exponentials of shifted entries. -/
theorem pay_apply (b : Vec Ideal S64 .f32) (x : Vec Ideal S5000x64 .f32) (p : Fin 5000) (q : Fin 64) :
    k3_pay1 b x (ix2 p q)
      = (zrow b x p q - zmax b x p) - Ideal.log (∑ k : Fin 64, Ideal.exp (zrow b x p k - zmax b x p)) := by
  rw [pay_eq, subf_apply, shifted_apply, broadcastTo_a1_ab_apply]
  show _ - FloatOps.log (shapeCast S5000x1 _ _ (ix2 p (0 : Fin 1))) = _
  rw [shapeCast_a_a1_apply, laneSum_apply, Ideal.log_def]
  congr 2
  refine Finset.sum_congr rfl fun k _ => ?_
  show FloatOps.exp (shifted b x (ix2 p k)) = _
  rw [shifted_apply, Ideal.exp_def]

/-! ## From the block to the array -/

/-- On rows that hold the same entries, with the same bias, the body's arithmetic is the specification's function:
    row `p` of the block against row `r` of the array. -/
theorem pay_eq_spec (A : FVec Ideal ⟨2, ![100000, 64]⟩ .f32) (B : FVec Ideal ⟨1, ![64]⟩ .f32)
    (x : Vec Ideal S5000x64 .f32) (b : Vec Ideal S64 .f32) (r : Fin 100000) (p : Fin 5000)
    (hx : ∀ k : Fin 64, x (ix2 p k) = A (ix2 r k)) (hb : ∀ k : Fin 64, b (ix1 k) = B (ix1 k)) (q : Fin 64) :
    k3_pay1 b x (ix2 p q) = Cert.Spec.biasLogSoftmax A B (ix2 r q) := by
  have hrow : zrow b x p = Cert.Spec.biased A B r := funext fun k => by
    unfold zrow Cert.Spec.biased
    rw [hx, hb]
  have hmax : zmax b x p = Cert.Spec.rowMax A B r := by
    unfold zmax Cert.Spec.rowMax
    rw [hrow]
  rw [pay_apply, hrow, hmax]
  rfl

theorem zero_offsets₂ : (![0, 0] : Fin 2 → Nat) = fun _ => 0 := funext fun a => by fin_cases a <;> rfl
theorem zero_offsets₁ : (![0] : Fin 1 → Nat) = fun _ => 0 := funext fun a => by fin_cases a <;> rfl

/-- The printed index maps, decided over the grid: the input block and the output block sit at row block `t`, lane
    block `0`; the bias window is the whole bias. -/
theorem idx_facts : ∀ t : Fin cfg3.N,
    win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- WHAT POINT `t` WRITES BACK is block `t` of the specification's function of the arrays as the region finds them. -/
theorem flushed_eq (V : (c : Dev nD) → (b : Ref sig .tc) → Buf (Elt Ideal) ((c : Thread nD τ).loc b)) (c : Dev nD) (t : Fin cfg3.N) :
    (dat3 (F := Ideal) V c).flushed 2 t
      = ((cfg3.win 2).blk t).view.read (Elt Ideal) (Cert.Spec.biasLogSoftmax (V c main_v58) (V c main_arg5)) := by
  show (cfg3.win 2).cut (grid3.coords t) ((dat3 V c).after 2 t) = _
  rw [after3_2]
  unfold out3_2
  rw [View.canon_unit_zero zero_offsets₂]
  simp only [View.ld_unit_zero (S := S5000x64) zero_offsets₂, View.ld_unit_zero (S := S64) zero_offsets₁]
  obtain ⟨e00, e01, e10, e20, e21⟩ := idx_facts t
  funext j
  obtain ⟨p, q, rfl⟩ : ∃ (p : Fin 5000) (q : Fin 64), j = ix2 p q := ⟨j 0, j 1, eq_ix2 j⟩
  show k3_pay1 (iblk3 V c 1 t) (iblk3 V c 0 t) (ix2 p q)
    = Cert.Spec.biasLogSoftmax (V c main_v58) (V c main_arg5) (((cfg3.win 2).blk t).view.emb (ix2 p q))
  have hi : ((cfg3.win 2).blk t).view.emb (ix2 p q)
      = ix2 ((((cfg3.win 2).blk t).view.emb (ix2 p q)) 0) q := by
    funext a; apply Fin.ext
    match a with
    | ⟨0, _⟩ => rfl
    | ⟨1, _⟩ => show win3_2.index t (1 : Fin 2) * 64 + 1 * q.val = q.val; omega
  rw [hi]
  refine pay_eq_spec (V c main_v58) (V c main_arg5) (iblk3 V c 0 t) (iblk3 V c 1 t) _ p (fun k => ?_) (fun k => ?_) q
  · show V c main_v58 (((cfg3.win 0).blk t).view.emb (ix2 p k)) = V c main_v58 (ix2 ((((cfg3.win 2).blk t).view.emb (ix2 p q)) 0) k)
    refine congrArg (V c main_v58) ?_
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * k.val = k.val; omega
  · show V c main_arg5 (((cfg3.win 1).blk t).view.emb (ix1 k)) = V c main_arg5 (ix1 k)
    refine congrArg (V c main_arg5) ?_
    funext a; apply Fin.ext
    match a with
    | ⟨0, _⟩ => show win3_1.index t (0 : Fin 1) * 64 + 1 * k.val = k.val; omega

/-- An index of the array is in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v59).slice (win3_2.rect t)).set ↔ _
  rw [View.set_slice_whole, Rect.mem_set_unit]
  exact Iff.rfl

/-- THE BLOCKS COVER THE ARRAY: row `r` lies in the block of point `r / 5000`, which is written back. -/
theorem cover (i : S100000x64.Idx) :
    ∃ t : Fin cfg3.N, (cfg3.win 2).flush t = true ∧ i ∈ ((cfg3.win 2).blk t).view.set := by
  have hi0 : (i 0).val < 100000 := idx2_lt0 i
  have hi1 : (i 1).val < 64 := idx2_lt1 i
  have hN : cfg3.N = 20 := N_3
  have ht : (i 0).val / 5000 < cfg3.N := by rw [hN]; omega
  obtain ⟨-, -, -, e20, e21⟩ := idx_facts ⟨(i 0).val / 5000, ht⟩
  have e20' : win3_2.index ⟨(i 0).val / 5000, ht⟩ (0 : Fin 2) = (i 0).val / 5000 := e20
  refine ⟨⟨(i 0).val / 5000, ht⟩, flush3_2 _, ?_⟩
  rw [mem_blk]
  intro a
  match a with
  | ⟨0, _⟩ =>
    show win3_2.index _ (0 : Fin 2) * 5000 ≤ (i 0).val ∧ (i 0).val < win3_2.index _ (0 : Fin 2) * 5000 + 5000
    rw [e20']; omega
  | ⟨1, _⟩ =>
    show win3_2.index _ (1 : Fin 2) * 64 ≤ (i 1).val ∧ (i 1).val < win3_2.index _ (1 : Fin 2) * 64 + 64
    rw [e21]; omega

/-- The array region 3 leaves in its output window, whatever the contents `V` it is entered at. -/
theorem final (V : (c : Dev nD) → (b : Ref sig .tc) → Buf (Elt Ideal) ((c : Thread nD τ).loc b)) (c : Dev nD) :
    (dat3 (F := Ideal) V c).arrAt 2 cfg3.N = Cert.Spec.biasLogSoftmax (V c main_v58) (V c main_arg5) :=
  (dat3 (F := Ideal) V c).arrAt_eq_of_cover 2 (Cert.Spec.biasLogSoftmax (V c main_v58) (V c main_arg5))
    (fun t _ => flushed_eq V c t) cover

end Cert.Region3

end
-- ==== Proof.RefStage0.lean ====
import proofs.«131749_j69277822484763_1_alg».proof.Proof.RefRead
import proofs.«131749_j69277822484763_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.RefStage0

open Idealize.ShloMosaic Idealize.ShloMosaic.TcCoe Idealize.ShloMosaic.ValueIdx
open Cert.ReferenceIdeal Cert.ReferenceIdeal.Read

/-- The reference's stage is the specification's function of the stage before it. -/
theorem ref (x0 : (⟨Cert.ReferenceIdeal.S100000x512, .f32⟩ : BufTy).Contents (Elt Ideal)) (x2 : (⟨Cert.ReferenceIdeal.S512x128, .f32⟩ : BufTy).Contents (Elt Ideal)) :
    Cert.ReferenceIdeal.Read.val_main_v30 (F := Ideal) x0 x2 = Cert.Spec.dense1 x0 x2 := by
  funext i
  -- the left operand is read at row `i 0`, column `k`; the right one at row `k`, column `i 1`
  have el : ∀ k : Fin 512, lidx_main_v30 i k = ix2 (n0 := 100000) (n1 := 512) (i 0) k := fun k =>
    funext fun a => Fin.ext (by match a with | ⟨0, _⟩ => rfl | ⟨1, _⟩ => rfl)
  have er : ∀ k : Fin 512, ridx_main_v30 i k = ix2 (n0 := 512) (n1 := 128) k (i 1) := fun k =>
    funext fun a => Fin.ext (by match a with | ⟨0, _⟩ => rfl | ⟨1, _⟩ => rfl)
  rw [val_main_v30_apply]
  simp only [el, er]
  rfl

end Cert.RefStage0

end
-- ==== Proof.RefStage1.lean ====
import proofs.«131749_j69277822484763_1_alg».proof.Proof.RefRead
import proofs.«131749_j69277822484763_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.RefStage1

open Idealize.ShloMosaic Idealize.ShloMosaic.TcCoe Idealize.ShloMosaic.ValueIdx
open Cert.ReferenceIdeal Cert.ReferenceIdeal.Read

/-- The two broadcasts of the bias, composed, read it at the column of the index. -/
theorem bias_idx (i : S100000x128.Idx) : idx_main_v44 (idx_main_v45 i) = ix1 (n := 128) (i 1) :=
  funext fun a => Fin.ext (by match a with | ⟨0, _⟩ => rfl)

/-- The reference's stage is the specification's function of the stage before it. -/
theorem ref (x0 : (⟨Cert.ReferenceIdeal.S100000x512, .f32⟩ : BufTy).Contents (Elt Ideal)) (x1 : (⟨Cert.ReferenceIdeal.S2x1600000, .i32⟩ : BufTy).Contents (Elt Ideal)) (x2 : (⟨Cert.ReferenceIdeal.S512x128, .f32⟩ : BufTy).Contents (Elt Ideal)) (x3 : (⟨Cert.ReferenceIdeal.S128, .f32⟩ : BufTy).Contents (Elt Ideal)) :
    Cert.ReferenceIdeal.Read.val_main_v47 (F := Ideal) x0 x1 x2 x3 = Cert.Spec.biasRelu (Cert.ReferenceIdeal.Read.val_main_v43 (F := Ideal) x0 x1 x2) x3 := by
  funext i
  rw [val_main_v47_apply, val_main_v46_apply, val_main_v45_apply, val_main_v44_apply, val_main_call1_v0_apply,
    val_main_call1_cst_apply, bias_idx]
  rfl

end Cert.RefStage1

end
-- ==== Proof.RefStage2.lean ====
import proofs.«131749_j69277822484763_1_alg».proof.Proof.RefRead
import proofs.«131749_j69277822484763_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.RefStage2

open Idealize.ShloMosaic Idealize.ShloMosaic.TcCoe Idealize.ShloMosaic.ValueIdx
open Cert.ReferenceIdeal Cert.ReferenceIdeal.Read

/-- The reference's stage is the specification's function of the stage before it. -/
theorem ref (x0 : (⟨Cert.ReferenceIdeal.S100000x512, .f32⟩ : BufTy).Contents (Elt Ideal)) (x1 : (⟨Cert.ReferenceIdeal.S2x1600000, .i32⟩ : BufTy).Contents (Elt Ideal)) (x2 : (⟨Cert.ReferenceIdeal.S512x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) :
    Cert.ReferenceIdeal.Read.val_main_v48 (F := Ideal) x0 x1 x2 x3 x4 = Cert.Spec.dense2 (Cert.ReferenceIdeal.Read.val_main_v47 (F := Ideal) x0 x1 x2 x3) x4 := by
  funext i
  -- The reference's product at an index is the sum over the contracted coordinate; its two index
  -- functions are the row index `(i 0, k)` and the column index `(k, i 1)`.
  have el : ∀ k : Fin 128, lidx_main_v48 i k = ix2 (n0 := 100000) (n1 := 128) (i 0) k := fun k =>
    funext fun a => Fin.ext (by match a with | ⟨0, _⟩ => rfl | ⟨1, _⟩ => rfl)
  have er : ∀ k : Fin 128, ridx_main_v48 i k = ix2 (n0 := 128) (n1 := 64) k (i 1) := fun k =>
    funext fun a => Fin.ext (by match a with | ⟨0, _⟩ => rfl | ⟨1, _⟩ => rfl)
  rw [val_main_v48_apply]
  simp only [el, er]
  rfl

end Cert.RefStage2

end
-- ==== Proof.RefStage3.lean ====
import proofs.«131749_j69277822484763_1_alg».proof.Proof.RefRead
import proofs.«131749_j69277822484763_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.RefStage3

open Idealize.ShloMosaic Idealize.ShloMosaic.TcCoe Idealize.ShloMosaic.ValueIdx
open Cert.ReferenceIdeal Cert.ReferenceIdeal.Read

/-- Reducing along the second axis at row `r` runs over the entries `(r, k)`. -/
theorem lift_row (h : Cert.ReferenceIdeal.S100000x64.Reduces [1] Cert.ReferenceIdeal.S100000) (r : Fin 100000) (k : Fin 64) :
    h.lift (ix1 r) k = ix2 r k :=
  funext fun a => Fin.ext (by match a with | ⟨0, _⟩ => rfl | ⟨1, _⟩ => rfl)

/-- The reduction with a maximum body along the second axis from `-∞`, at row `r`, is the fold of `max` over that row
    from `-∞`. -/
theorem hostRowMax (y : (⟨Cert.ReferenceIdeal.S100000x64, .f32⟩ : BufTy).Contents (Elt Ideal)) (r : Fin 100000) :
    Host.reduce FloatOps.maximumf y (val_main_call2_cst (F := Ideal)) Facts₀.reducesTo_S100000x64_S100000_d1 Facts₀.h_S_ (ix1 r)
      = (Finset.univ : Finset (Fin 64)).fold max (Ideal.ofBits .f32 0xFF800000#32) (fun k => y (ix2 r k)) := by
  have h : Cert.ReferenceIdeal.S100000x64.Reduces [1] Cert.ReferenceIdeal.S100000 := by decide
  rw [Host.reduce_eq_fold_single FloatOps.maximumf _ _ Facts₀.reducesTo_S100000x64_S100000_d1 h Facts₀.h_S_]
  have hf : (y ∘ h.lift (ix1 r)) = fun k : Fin 64 => y (ix2 r k) := funext fun k => congrArg y (lift_row h r k)
  exact congrArg (fun f => Finset.fold max (Ideal.ofBits .f32 0xFF800000#32) f (Finset.univ : Finset (Fin 64))) hf

section Rows

variable (x0 : (⟨Cert.ReferenceIdeal.S100000x512, .f32⟩ : BufTy).Contents (Elt Ideal))
  (x1 : (⟨Cert.ReferenceIdeal.S2x1600000, .i32⟩ : BufTy).Contents (Elt Ideal))
  (x2 : (⟨Cert.ReferenceIdeal.S512x128, .f32⟩ : BufTy).Contents (Elt Ideal))
  (x3 : (⟨Cert.ReferenceIdeal.S128, .f32⟩ : BufTy).Contents (Elt Ideal))
  (x4 : (⟨Cert.ReferenceIdeal.S128x64, .f32⟩ : BufTy).Contents (Elt Ideal))
  (x5 : (⟨Cert.ReferenceIdeal.S64, .f32⟩ : BufTy).Contents (Elt Ideal))

/-- The stage's input plus the bias, at `(r, q)`: the bias is viewed as one row and repeated down the rows. -/
theorem biased_apply (r : Fin 100000) (q : Fin 64) :
    val_main_v64 (F := Ideal) x0 x1 x2 x3 x4 x5 (ix2 r q)
      = Cert.Spec.biased (val_main_v61 (F := Ideal) x0 x1 x2 x3 x4) x5 r q := by
  rw [val_main_v64_apply, val_main_v63_apply, val_main_v62_apply, Ideal.addf_def]
  unfold Cert.Spec.biased
  refine congrArg (_ + ·) (congrArg x5 ?_)
  exact funext fun a => Fin.ext (by match a with | ⟨0, _⟩ => rfl)

/-- The maximum of a value and a fold of `max` that starts from it is the fold. -/
theorem max_fold_self (w : EReal) (f : Fin 64 → EReal) :
    max w ((Finset.univ : Finset (Fin 64)).fold max w f) = (Finset.univ : Finset (Fin 64)).fold max w f :=
  max_eq_right ((Finset.le_fold_max w).mpr (Or.inl le_rfl))

/-- The row maximum, at row `r`: the maximum of `-∞` and the fold of `max` over the row from `-∞`. -/
theorem rowMax_apply (r : Fin 100000) :
    val_main_call2_v2 (F := Ideal) x0 x1 x2 x3 x4 x5 (ix1 r)
      = Cert.Spec.rowMax (val_main_v61 (F := Ideal) x0 x1 x2 x3 x4) x5 r := by
  have hf : (fun k : Fin 64 => val_main_v64 (F := Ideal) x0 x1 x2 x3 x4 x5 (ix2 r k))
      = Cert.Spec.biased (val_main_v61 (F := Ideal) x0 x1 x2 x3 x4) x5 r :=
    funext fun k => biased_apply x0 x1 x2 x3 x4 x5 r k
  rw [val_main_call2_v2_apply, val_main_call2_v1_apply, val_main_call2_cst_0_apply]
  unfold val_main_call2_v0
  rw [hostRowMax, hf]
  unfold Cert.Spec.rowMax
  exact max_fold_self _ _

end Rows

section Stage

variable (x0 : (⟨Cert.ReferenceIdeal.S100000x512, .f32⟩ : BufTy).Contents (Elt Ideal))
  (x1 : (⟨Cert.ReferenceIdeal.S2x1600000, .i32⟩ : BufTy).Contents (Elt Ideal))
  (x2 : (⟨Cert.ReferenceIdeal.S512x128, .f32⟩ : BufTy).Contents (Elt Ideal))
  (x3 : (⟨Cert.ReferenceIdeal.S128, .f32⟩ : BufTy).Contents (Elt Ideal))
  (x4 : (⟨Cert.ReferenceIdeal.S128x64, .f32⟩ : BufTy).Contents (Elt Ideal))
  (x5 : (⟨Cert.ReferenceIdeal.S64, .f32⟩ : BufTy).Contents (Elt Ideal))

/-- The stage's input plus the bias with the row maximum taken off, at `(r, q)`: the row maximum is kept as a column and
    repeated along the row. -/
theorem shifted_apply (r : Fin 100000) (q : Fin 64) :
    val_main_call2_v5 (F := Ideal) x0 x1 x2 x3 x4 x5 (ix2 r q)
      = Cert.Spec.biased (val_main_v61 (F := Ideal) x0 x1 x2 x3 x4) x5 r q
        - Cert.Spec.rowMax (val_main_v61 (F := Ideal) x0 x1 x2 x3 x4) x5 r := by
  have hi : idx_main_call2_v3 (idx_main_call2_v4 (ix2 r q)) = ix1 r :=
    funext fun a => Fin.ext (by match a with | ⟨0, _⟩ => rfl)
  rw [val_main_call2_v5_apply, val_main_call2_v4_apply, val_main_call2_v3_apply, hi, rowMax_apply, biased_apply,
    Ideal.subf_def]

/-- The row's sum of exponentials of shifted entries, at row `r`: the sum starts from zero. -/
theorem expSum_apply (r : Fin 100000) :
    val_main_call2_v7 (F := Ideal) x0 x1 x2 x3 x4 x5 (ix1 r)
      = ∑ k : Fin 64, Ideal.exp (Cert.Spec.biased (val_main_v61 (F := Ideal) x0 x1 x2 x3 x4) x5 r k
          - Cert.Spec.rowMax (val_main_v61 (F := Ideal) x0 x1 x2 x3 x4) x5 r) := by
  have hk : ∀ k : Fin 64, idx_main_call2_v7 (ix1 r) k = ix2 r k := fun k =>
    funext fun a => Fin.ext (by match a with | ⟨0, _⟩ => rfl | ⟨1, _⟩ => rfl)
  rw [val_main_call2_v7_apply, val_main_call2_cst_1_apply]
  show Ideal.ofBits .f32 0x00000000#32 + _ = _
  rw [Ideal.ofBits_zero_f32, zero_add]
  refine Finset.sum_congr rfl fun k _ => ?_
  rw [hk, val_main_call2_v6_apply, shifted_apply, Ideal.hostUnary_exp_def]

end Stage

/-- The reference's stage is the specification's function of the stage before it. -/
theorem ref (x0 : (⟨Cert.ReferenceIdeal.S100000x512, .f32⟩ : BufTy).Contents (Elt Ideal)) (x1 : (⟨Cert.ReferenceIdeal.S2x1600000, .i32⟩ : BufTy).Contents (Elt Ideal)) (x2 : (⟨Cert.ReferenceIdeal.S512x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) :
    Cert.ReferenceIdeal.Read.val_main_v65 (F := Ideal) x0 x1 x2 x3 x4 x5 = Cert.Spec.biasLogSoftmax (Cert.ReferenceIdeal.Read.val_main_v61 (F := Ideal) x0 x1 x2 x3 x4) x5 := by
  funext i
  obtain ⟨r, q, rfl⟩ : ∃ (r : Fin 100000) (q : Fin 64), i = ix2 r q := ⟨i 0, i 1, eq_ix2 i⟩
  have hi : idx_main_call2_v8 (idx_main_call2_v10 (ix2 r q)) = ix1 r :=
    funext fun a => Fin.ext (by match a with | ⟨0, _⟩ => rfl)
  rw [val_main_v65_apply, shifted_apply, val_main_call2_v10_apply, val_main_call2_v9_apply, val_main_call2_v8_apply, hi,
    expSum_apply, Ideal.subf_def, Ideal.hostUnary_log_def]
  rfl

end Cert.RefStage3

end
-- ==== Proof.KernelValue.lean ====
/-
  What the kernel's program leaves in its result buffer, as a function of the argument arrays: the reference's own
  last stage, `val_main_v65`, of them.

  @main is five stretches of host operations around four dense regions. The host stretches are, operation for
  operation, the reference's: the self-loops appended to the edge list, the degrees by a scatter-add of ones, the
  symmetric normalisation `deg^(-1/2)` gathered at both ends of every edge, and, per layer, "gather the transformed
  rows at the sources, scale by the edge's normalisation, scatter-add at the targets". So each stretch is read off
  its fold once (at any float family), under the hypothesis that the buffers it reads hold the reference's stages, and
  concludes that the buffer it writes holds the reference's next stage. Each region is read through its window
  (the region modules): what it leaves in its output array is the specification's dense function of what it found, and
  that function is the reference's stage (the stage modules). Chaining the nine boundaries gives the result.
-/
import proofs.«131749_j69277822484763_1_alg».proof.Proof.Gen.KernelIdeal.Frame
import proofs.«131749_j69277822484763_1_alg».proof.Proof.RefRead
import proofs.«131749_j69277822484763_1_alg».proof.Proof.Region0
import proofs.«131749_j69277822484763_1_alg».proof.Proof.Region1
import proofs.«131749_j69277822484763_1_alg».proof.Proof.Region2
import proofs.«131749_j69277822484763_1_alg».proof.Proof.Region3
import proofs.«131749_j69277822484763_1_alg».proof.Proof.RefStage0
import proofs.«131749_j69277822484763_1_alg».proof.Proof.RefStage1
import proofs.«131749_j69277822484763_1_alg».proof.Proof.RefStage2
import proofs.«131749_j69277822484763_1_alg».proof.Proof.RefStage3
import Idealize.ShloMosaic.Lib.StableHlo.Run

set_option maxRecDepth 16384

noncomputable section

namespace Cert.KernelValue

open Idealize.ShloMosaic Idealize.ShloMosaic.TcCoe Idealize.SL.Sem Idealize.ShloMosaic.StableHlo
open Cert.KernelIdeal Cert.KernelIdeal.Gen
open Cert.ReferenceIdeal.Read

/-! ## The host stretches, read off their folds at any float family -/

section Host

variable {F : FTy → Type} [FloatOps F] (W : Valuation τ sig (Elt F))

/-! ### The first stretch: sources and targets with the self-loops appended; the degrees, their positivity mask and
    their inverse square roots -/

theorem h0_v5 : after (hostOps0 (F := F)) W (Proc.devRef .tc main_v5) = val_main_v5 (F := F) (W (Proc.devRef .tc main_arg1)) := by
  after_results; rfl
theorem h0_v6 : after (hostOps0 (F := F)) W (Proc.devRef .tc main_v6) = val_main_v6 (F := F) (W (Proc.devRef .tc main_arg1)) := by
  after_results; rfl
theorem h0_v12 : after (hostOps0 (F := F)) W (Proc.devRef .tc main_v12) = val_main_v12 (F := F) (W (Proc.devRef .tc main_arg1)) := by
  after_results; rfl
theorem h0_v13 : after (hostOps0 (F := F)) W (Proc.devRef .tc main_v13) = val_main_v13 (F := F) (W (Proc.devRef .tc main_arg1)) := by
  after_results; rfl
theorem h0_cst2 : after (hostOps0 (F := F)) W (Proc.devRef .tc main_cst_2) = val_main_cst_2 (F := F) := by
  after_results; rfl

/-! ### The second stretch: the inverse square root where the degree is positive, zero elsewhere -/

theorem h1_v14 (x1 : (⟨S2x1600000, .i32⟩ : BufTy).Contents (Elt F))
    (h12 : W (Proc.devRef .tc main_v12) = val_main_v12 (F := F) x1) (h13 : W (Proc.devRef .tc main_v13) = val_main_v13 (F := F) x1)
    (hc : W (Proc.devRef .tc main_cst_2) = val_main_cst_2 (F := F)) :
    after (hostOps0_1 (F := F)) W (Proc.devRef .tc main_v14) = val_main_v14 (F := F) x1 := by
  after_results
  rw [h12, h13, hc]
  rfl

/-! ### The third stretch: every edge's normalisation, the product of the two gathered ends -/

set_option maxHeartbeats 2000000 in
theorem h2_v29 (x1 : (⟨S2x1600000, .i32⟩ : BufTy).Contents (Elt F))
    (h5 : W (Proc.devRef .tc main_v5) = val_main_v5 (F := F) x1) (h6 : W (Proc.devRef .tc main_v6) = val_main_v6 (F := F) x1)
    (h14 : W (Proc.devRef .tc main_v14) = val_main_v14 (F := F) x1) :
    after (hostOps0_2 (F := F)) W (Proc.devRef .tc main_v29) = val_main_v29 (F := F) x1 := by
  after_results_simp
  rw [h5, h6, h14]
  rfl

/-! ### The aggregation of layer one: gather at the sources, scale, scatter-add at the targets -/

set_option maxHeartbeats 2000000 in
theorem h3_v43 (x0 : (⟨S100000x512, .f32⟩ : BufTy).Contents (Elt F)) (x1 : (⟨S2x1600000, .i32⟩ : BufTy).Contents (Elt F)) (x2 : (⟨S512x128, .f32⟩ : BufTy).Contents (Elt F))
    (h30 : W (Proc.devRef .tc main_v30) = val_main_v30 (F := F) x0 x2)
    (h5 : W (Proc.devRef .tc main_v5) = val_main_v5 (F := F) x1) (h6 : W (Proc.devRef .tc main_v6) = val_main_v6 (F := F) x1)
    (h29 : W (Proc.devRef .tc main_v29) = val_main_v29 (F := F) x1) :
    after (hostOps1 (F := F)) W (Proc.devRef .tc main_v43) = val_main_v43 (F := F) x0 x1 x2 := by
  after_results_simp
  rw [h30, h5, h6, h29]
  rfl

/-! ### The aggregation of layer two -/

set_option maxHeartbeats 2000000 in
theorem h4_v58 (x0 : (⟨S100000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F)) (x4 : (⟨S128x64, .f32⟩ : BufTy).Contents (Elt F))
    (h45 : W (Proc.devRef .tc main_v45) = val_main_v48 (F := F) x0 x1 x2 x3 x4)
    (h5 : W (Proc.devRef .tc main_v5) = val_main_v5 (F := F) x1) (h6 : W (Proc.devRef .tc main_v6) = val_main_v6 (F := F) x1)
    (h29 : W (Proc.devRef .tc main_v29) = val_main_v29 (F := F) x1) :
    after (hostOps3 (F := F)) W (Proc.devRef .tc main_v58) = val_main_v61 (F := F) x0 x1 x2 x3 x4 := by
  after_results_simp
  rw [h45, h5, h6, h29]
  rfl

/-! ### What a stretch does not write it keeps -/

theorem h0_arg0 : after (hostOps0 (F := F)) W (Proc.devRef .tc main_arg0) = W (Proc.devRef .tc main_arg0) := by after_results
theorem h0_arg2 : after (hostOps0 (F := F)) W (Proc.devRef .tc main_arg2) = W (Proc.devRef .tc main_arg2) := by after_results
theorem h0_arg3 : after (hostOps0 (F := F)) W (Proc.devRef .tc main_arg3) = W (Proc.devRef .tc main_arg3) := by after_results
theorem h0_arg4 : after (hostOps0 (F := F)) W (Proc.devRef .tc main_arg4) = W (Proc.devRef .tc main_arg4) := by after_results
theorem h0_arg5 : after (hostOps0 (F := F)) W (Proc.devRef .tc main_arg5) = W (Proc.devRef .tc main_arg5) := by after_results
theorem h1_v5 : after (hostOps0_1 (F := F)) W (Proc.devRef .tc main_v5) = W (Proc.devRef .tc main_v5) := by after_results
theorem h1_v6 : after (hostOps0_1 (F := F)) W (Proc.devRef .tc main_v6) = W (Proc.devRef .tc main_v6) := by after_results
theorem h1_arg0 : after (hostOps0_1 (F := F)) W (Proc.devRef .tc main_arg0) = W (Proc.devRef .tc main_arg0) := by after_results
theorem h1_arg2 : after (hostOps0_1 (F := F)) W (Proc.devRef .tc main_arg2) = W (Proc.devRef .tc main_arg2) := by after_results
theorem h1_arg3 : after (hostOps0_1 (F := F)) W (Proc.devRef .tc main_arg3) = W (Proc.devRef .tc main_arg3) := by after_results
theorem h1_arg4 : after (hostOps0_1 (F := F)) W (Proc.devRef .tc main_arg4) = W (Proc.devRef .tc main_arg4) := by after_results
theorem h1_arg5 : after (hostOps0_1 (F := F)) W (Proc.devRef .tc main_arg5) = W (Proc.devRef .tc main_arg5) := by after_results
theorem h2_v5 : after (hostOps0_2 (F := F)) W (Proc.devRef .tc main_v5) = W (Proc.devRef .tc main_v5) := by after_results
theorem h2_v6 : after (hostOps0_2 (F := F)) W (Proc.devRef .tc main_v6) = W (Proc.devRef .tc main_v6) := by after_results
theorem h2_arg0 : after (hostOps0_2 (F := F)) W (Proc.devRef .tc main_arg0) = W (Proc.devRef .tc main_arg0) := by after_results
theorem h2_arg2 : after (hostOps0_2 (F := F)) W (Proc.devRef .tc main_arg2) = W (Proc.devRef .tc main_arg2) := by after_results
theorem h2_arg3 : after (hostOps0_2 (F := F)) W (Proc.devRef .tc main_arg3) = W (Proc.devRef .tc main_arg3) := by after_results
theorem h2_arg4 : after (hostOps0_2 (F := F)) W (Proc.devRef .tc main_arg4) = W (Proc.devRef .tc main_arg4) := by after_results
theorem h2_arg5 : after (hostOps0_2 (F := F)) W (Proc.devRef .tc main_arg5) = W (Proc.devRef .tc main_arg5) := by after_results
theorem h3_v5 : after (hostOps1 (F := F)) W (Proc.devRef .tc main_v5) = W (Proc.devRef .tc main_v5) := by after_results
theorem h3_v6 : after (hostOps1 (F := F)) W (Proc.devRef .tc main_v6) = W (Proc.devRef .tc main_v6) := by after_results
theorem h3_v29 : after (hostOps1 (F := F)) W (Proc.devRef .tc main_v29) = W (Proc.devRef .tc main_v29) := by after_results
theorem h3_arg3 : after (hostOps1 (F := F)) W (Proc.devRef .tc main_arg3) = W (Proc.devRef .tc main_arg3) := by after_results
theorem h3_arg4 : after (hostOps1 (F := F)) W (Proc.devRef .tc main_arg4) = W (Proc.devRef .tc main_arg4) := by after_results
theorem h3_arg5 : after (hostOps1 (F := F)) W (Proc.devRef .tc main_arg5) = W (Proc.devRef .tc main_arg5) := by after_results
theorem h4_arg5 : after (hostOps3 (F := F)) W (Proc.devRef .tc main_arg5) = W (Proc.devRef .tc main_arg5) := by after_results

end Host

/-! ## The chain: the nine boundaries of @main, at the extended reals -/

section Chain

variable (m : (ℓ : Loc nD τ sig) → Buf (Elt Ideal) ℓ) (ρ : Dev nD → PrngReg) (c : Dev nD)

/-! ### After the first stretch -/
theorem b1_v5 : W1 m ρ c (Proc.devRef .tc main_v5) = val_main_v5 (F := Ideal) (m ((c : Thread nD τ).loc main_arg1)) :=
  h0_v5 (F := Ideal) (W0 m ρ c)
theorem b1_v6 : W1 m ρ c (Proc.devRef .tc main_v6) = val_main_v6 (F := Ideal) (m ((c : Thread nD τ).loc main_arg1)) :=
  h0_v6 (F := Ideal) (W0 m ρ c)
theorem b1_v12 : W1 m ρ c (Proc.devRef .tc main_v12) = val_main_v12 (F := Ideal) (m ((c : Thread nD τ).loc main_arg1)) :=
  h0_v12 (F := Ideal) (W0 m ρ c)
theorem b1_v13 : W1 m ρ c (Proc.devRef .tc main_v13) = val_main_v13 (F := Ideal) (m ((c : Thread nD τ).loc main_arg1)) :=
  h0_v13 (F := Ideal) (W0 m ρ c)
theorem b1_cst_2 : W1 m ρ c (Proc.devRef .tc main_cst_2) = val_main_cst_2 (F := Ideal) :=
  h0_cst2 (F := Ideal) (W0 m ρ c)
theorem b1_arg0 : W1 m ρ c (Proc.devRef .tc main_arg0) = (m ((c : Thread nD τ).loc main_arg0)) :=
  h0_arg0 (F := Ideal) (W0 m ρ c)
theorem b1_arg2 : W1 m ρ c (Proc.devRef .tc main_arg2) = (m ((c : Thread nD τ).loc main_arg2)) :=
  h0_arg2 (F := Ideal) (W0 m ρ c)
theorem b1_arg3 : W1 m ρ c (Proc.devRef .tc main_arg3) = (m ((c : Thread nD τ).loc main_arg3)) :=
  h0_arg3 (F := Ideal) (W0 m ρ c)
theorem b1_arg4 : W1 m ρ c (Proc.devRef .tc main_arg4) = (m ((c : Thread nD τ).loc main_arg4)) :=
  h0_arg4 (F := Ideal) (W0 m ρ c)
theorem b1_arg5 : W1 m ρ c (Proc.devRef .tc main_arg5) = (m ((c : Thread nD τ).loc main_arg5)) :=
  h0_arg5 (F := Ideal) (W0 m ρ c)

/-! ### After the second stretch -/
theorem b2_v14 : W2 m ρ c (Proc.devRef .tc main_v14) = val_main_v14 (F := Ideal) (m ((c : Thread nD τ).loc main_arg1)) :=
  h1_v14 (F := Ideal) (W1 m ρ c) _ (b1_v12 m ρ c) (b1_v13 m ρ c) (b1_cst_2 m ρ c)
theorem b2_v5 : W2 m ρ c (Proc.devRef .tc main_v5) = val_main_v5 (F := Ideal) (m ((c : Thread nD τ).loc main_arg1)) :=
  (h1_v5 (F := Ideal) (W1 m ρ c)).trans (b1_v5 m ρ c)
theorem b2_v6 : W2 m ρ c (Proc.devRef .tc main_v6) = val_main_v6 (F := Ideal) (m ((c : Thread nD τ).loc main_arg1)) :=
  (h1_v6 (F := Ideal) (W1 m ρ c)).trans (b1_v6 m ρ c)
theorem b2_arg0 : W2 m ρ c (Proc.devRef .tc main_arg0) = (m ((c : Thread nD τ).loc main_arg0)) :=
  (h1_arg0 (F := Ideal) (W1 m ρ c)).trans (b1_arg0 m ρ c)
theorem b2_arg2 : W2 m ρ c (Proc.devRef .tc main_arg2) = (m ((c : Thread nD τ).loc main_arg2)) :=
  (h1_arg2 (F := Ideal) (W1 m ρ c)).trans (b1_arg2 m ρ c)
theorem b2_arg3 : W2 m ρ c (Proc.devRef .tc main_arg3) = (m ((c : Thread nD τ).loc main_arg3)) :=
  (h1_arg3 (F := Ideal) (W1 m ρ c)).trans (b1_arg3 m ρ c)
theorem b2_arg4 : W2 m ρ c (Proc.devRef .tc main_arg4) = (m ((c : Thread nD τ).loc main_arg4)) :=
  (h1_arg4 (F := Ideal) (W1 m ρ c)).trans (b1_arg4 m ρ c)
theorem b2_arg5 : W2 m ρ c (Proc.devRef .tc main_arg5) = (m ((c : Thread nD τ).loc main_arg5)) :=
  (h1_arg5 (F := Ideal) (W1 m ρ c)).trans (b1_arg5 m ρ c)

/-! ### After the third stretch: region 0's entry -/
theorem b3_v29 : W3 m ρ c (Proc.devRef .tc main_v29) = val_main_v29 (F := Ideal) (m ((c : Thread nD τ).loc main_arg1)) :=
  h2_v29 (F := Ideal) (W2 m ρ c) _ (b2_v5 m ρ c) (b2_v6 m ρ c) (b2_v14 m ρ c)
theorem b3_v5 : W3 m ρ c (Proc.devRef .tc main_v5) = val_main_v5 (F := Ideal) (m ((c : Thread nD τ).loc main_arg1)) :=
  (h2_v5 (F := Ideal) (W2 m ρ c)).trans (b2_v5 m ρ c)
theorem b3_v6 : W3 m ρ c (Proc.devRef .tc main_v6) = val_main_v6 (F := Ideal) (m ((c : Thread nD τ).loc main_arg1)) :=
  (h2_v6 (F := Ideal) (W2 m ρ c)).trans (b2_v6 m ρ c)
theorem b3_arg0 : W3 m ρ c (Proc.devRef .tc main_arg0) = (m ((c : Thread nD τ).loc main_arg0)) :=
  (h2_arg0 (F := Ideal) (W2 m ρ c)).trans (b2_arg0 m ρ c)
theorem b3_arg2 : W3 m ρ c (Proc.devRef .tc main_arg2) = (m ((c : Thread nD τ).loc main_arg2)) :=
  (h2_arg2 (F := Ideal) (W2 m ρ c)).trans (b2_arg2 m ρ c)
theorem b3_arg3 : W3 m ρ c (Proc.devRef .tc main_arg3) = (m ((c : Thread nD τ).loc main_arg3)) :=
  (h2_arg3 (F := Ideal) (W2 m ρ c)).trans (b2_arg3 m ρ c)
theorem b3_arg4 : W3 m ρ c (Proc.devRef .tc main_arg4) = (m ((c : Thread nD τ).loc main_arg4)) :=
  (h2_arg4 (F := Ideal) (W2 m ρ c)).trans (b2_arg4 m ρ c)
theorem b3_arg5 : W3 m ρ c (Proc.devRef .tc main_arg5) = (m ((c : Thread nD τ).loc main_arg5)) :=
  (h2_arg5 (F := Ideal) (W2 m ρ c)).trans (b2_arg5 m ρ c)

/-! ### After region 0: the first transform -/
theorem b4_v30 : W4 m ρ c (Proc.devRef .tc main_v30) = val_main_v30 (F := Ideal) (m ((c : Thread nD τ).loc main_arg0)) (m ((c : Thread nD τ).loc main_arg2)) :=
  (W4_arr m ρ c 2).trans ((Cert.Region0.final (V3 m ρ) c).trans
    ((congrArg₂ Cert.Spec.dense1 (b3_arg0 m ρ c) (b3_arg2 m ρ c)).trans (Cert.RefStage0.ref _ _).symm))
theorem b4_v5 : W4 m ρ c (Proc.devRef .tc main_v5) = val_main_v5 (F := Ideal) (m ((c : Thread nD τ).loc main_arg1)) :=
  (W4_of_ne m ρ c main_v5 (by decide)).trans (b3_v5 m ρ c)
theorem b4_v6 : W4 m ρ c (Proc.devRef .tc main_v6) = val_main_v6 (F := Ideal) (m ((c : Thread nD τ).loc main_arg1)) :=
  (W4_of_ne m ρ c main_v6 (by decide)).trans (b3_v6 m ρ c)
theorem b4_v29 : W4 m ρ c (Proc.devRef .tc main_v29) = val_main_v29 (F := Ideal) (m ((c : Thread nD τ).loc main_arg1)) :=
  (W4_of_ne m ρ c main_v29 (by decide)).trans (b3_v29 m ρ c)
theorem b4_arg3 : W4 m ρ c (Proc.devRef .tc main_arg3) = (m ((c : Thread nD τ).loc main_arg3)) :=
  (W4_of_ne m ρ c main_arg3 (by decide)).trans (b3_arg3 m ρ c)
theorem b4_arg4 : W4 m ρ c (Proc.devRef .tc main_arg4) = (m ((c : Thread nD τ).loc main_arg4)) :=
  (W4_of_ne m ρ c main_arg4 (by decide)).trans (b3_arg4 m ρ c)
theorem b4_arg5 : W4 m ρ c (Proc.devRef .tc main_arg5) = (m ((c : Thread nD τ).loc main_arg5)) :=
  (W4_of_ne m ρ c main_arg5 (by decide)).trans (b3_arg5 m ρ c)

/-! ### After the fourth stretch: layer one aggregated, region 1's entry -/
theorem b5_v43 : W5 m ρ c (Proc.devRef .tc main_v43) = val_main_v43 (F := Ideal) (m ((c : Thread nD τ).loc main_arg0)) (m ((c : Thread nD τ).loc main_arg1)) (m ((c : Thread nD τ).loc main_arg2)) :=
  h3_v43 (F := Ideal) (W4 m ρ c) _ _ _ (b4_v30 m ρ c) (b4_v5 m ρ c) (b4_v6 m ρ c) (b4_v29 m ρ c)
theorem b5_v5 : W5 m ρ c (Proc.devRef .tc main_v5) = val_main_v5 (F := Ideal) (m ((c : Thread nD τ).loc main_arg1)) :=
  (h3_v5 (F := Ideal) (W4 m ρ c)).trans (b4_v5 m ρ c)
theorem b5_v6 : W5 m ρ c (Proc.devRef .tc main_v6) = val_main_v6 (F := Ideal) (m ((c : Thread nD τ).loc main_arg1)) :=
  (h3_v6 (F := Ideal) (W4 m ρ c)).trans (b4_v6 m ρ c)
theorem b5_v29 : W5 m ρ c (Proc.devRef .tc main_v29) = val_main_v29 (F := Ideal) (m ((c : Thread nD τ).loc main_arg1)) :=
  (h3_v29 (F := Ideal) (W4 m ρ c)).trans (b4_v29 m ρ c)
theorem b5_arg3 : W5 m ρ c (Proc.devRef .tc main_arg3) = (m ((c : Thread nD τ).loc main_arg3)) :=
  (h3_arg3 (F := Ideal) (W4 m ρ c)).trans (b4_arg3 m ρ c)
theorem b5_arg4 : W5 m ρ c (Proc.devRef .tc main_arg4) = (m ((c : Thread nD τ).loc main_arg4)) :=
  (h3_arg4 (F := Ideal) (W4 m ρ c)).trans (b4_arg4 m ρ c)
theorem b5_arg5 : W5 m ρ c (Proc.devRef .tc main_arg5) = (m ((c : Thread nD τ).loc main_arg5)) :=
  (h3_arg5 (F := Ideal) (W4 m ρ c)).trans (b4_arg5 m ρ c)

/-! ### After region 1: bias and positive part; region 2's entry -/
theorem b6_v44 : W6 m ρ c (Proc.devRef .tc main_v44) = val_main_v47 (F := Ideal) (m ((c : Thread nD τ).loc main_arg0)) (m ((c : Thread nD τ).loc main_arg1)) (m ((c : Thread nD τ).loc main_arg2)) (m ((c : Thread nD τ).loc main_arg3)) :=
  (W6_arr m ρ c 2).trans ((Cert.Region1.final (V5 m ρ) c).trans
    ((congrArg₂ Cert.Spec.biasRelu (b5_v43 m ρ c) (b5_arg3 m ρ c)).trans (Cert.RefStage1.ref _ _ _ _).symm))
theorem b6_v5 : W6 m ρ c (Proc.devRef .tc main_v5) = val_main_v5 (F := Ideal) (m ((c : Thread nD τ).loc main_arg1)) :=
  (W6_of_ne m ρ c main_v5 (by decide)).trans (b5_v5 m ρ c)
theorem b6_v6 : W6 m ρ c (Proc.devRef .tc main_v6) = val_main_v6 (F := Ideal) (m ((c : Thread nD τ).loc main_arg1)) :=
  (W6_of_ne m ρ c main_v6 (by decide)).trans (b5_v6 m ρ c)
theorem b6_v29 : W6 m ρ c (Proc.devRef .tc main_v29) = val_main_v29 (F := Ideal) (m ((c : Thread nD τ).loc main_arg1)) :=
  (W6_of_ne m ρ c main_v29 (by decide)).trans (b5_v29 m ρ c)
theorem b6_arg4 : W6 m ρ c (Proc.devRef .tc main_arg4) = (m ((c : Thread nD τ).loc main_arg4)) :=
  (W6_of_ne m ρ c main_arg4 (by decide)).trans (b5_arg4 m ρ c)
theorem b6_arg5 : W6 m ρ c (Proc.devRef .tc main_arg5) = (m ((c : Thread nD τ).loc main_arg5)) :=
  (W6_of_ne m ρ c main_arg5 (by decide)).trans (b5_arg5 m ρ c)

/-! ### After region 2: the second transform -/
theorem b7_v45 : W7 m ρ c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans ((Cert.Region2.final (V6 m ρ) c).trans
    ((congrArg₂ Cert.Spec.dense2 (b6_v44 m ρ c) (b6_arg4 m ρ c)).trans (Cert.RefStage2.ref _ _ _ _ _).symm))
theorem b7_v5 : W7 m ρ c (Proc.devRef .tc main_v5) = val_main_v5 (F := Ideal) (m ((c : Thread nD τ).loc main_arg1)) :=
  (W7_of_ne m ρ c main_v5 (by decide)).trans (b6_v5 m ρ c)
theorem b7_v6 : W7 m ρ c (Proc.devRef .tc main_v6) = val_main_v6 (F := Ideal) (m ((c : Thread nD τ).loc main_arg1)) :=
  (W7_of_ne m ρ c main_v6 (by decide)).trans (b6_v6 m ρ c)
theorem b7_v29 : W7 m ρ c (Proc.devRef .tc main_v29) = val_main_v29 (F := Ideal) (m ((c : Thread nD τ).loc main_arg1)) :=
  (W7_of_ne m ρ c main_v29 (by decide)).trans (b6_v29 m ρ c)
theorem b7_arg5 : W7 m ρ c (Proc.devRef .tc main_arg5) = (m ((c : Thread nD τ).loc main_arg5)) :=
  (W7_of_ne m ρ c main_arg5 (by decide)).trans (b6_arg5 m ρ c)

/-! ### After the fifth stretch: layer two aggregated, region 3's entry -/
theorem b8_v58 : W8 m ρ c (Proc.devRef .tc main_v58) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  h4_v58 (F := Ideal) (W7 m ρ c) _ _ _ _ _ (b7_v45 m ρ c) (b7_v5 m ρ c) (b7_v6 m ρ c) (b7_v29 m ρ c)
theorem b8_arg5 : W8 m ρ c (Proc.devRef .tc main_arg5) = (m ((c : Thread nD τ).loc main_arg5)) :=
  (h4_arg5 (F := Ideal) (W7 m ρ c)).trans (b7_arg5 m ρ c)

/-! ### After region 3: bias and log-softmax -/
/-- The result buffer after the last region holds the reference's last stage of the argument arrays as launched. -/
theorem out_eq : W9 m ρ c (Proc.devRef .tc main_v59) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((Cert.Region3.final (V8 m ρ) c).trans
    ((congrArg₂ Cert.Spec.biasLogSoftmax (b8_v58 m ρ c) (b8_arg5 m ρ c)).trans (Cert.RefStage3.ref _ _ _ _ _ _).symm))

end Chain

end Cert.KernelValue

end
-- ==== Proof.RefValue.lean ====
/-
  What the reference's program leaves in its result buffer: its last stage, `val_main_v65`, of the argument arrays.

  The reference's @main is one straight line of 98 host operations, and every execution ends with each buffer at the
  fold of their results over the launch contents. The fold is read here in seven stretches cut where a value is shared
  (the extended edge lists, the edges' normalisations, each layer's transform and aggregate): a stretch entered with
  the buffers it reads at their stages leaves the buffer it writes at the next stage, and keeps what it does not write.
-/
import proofs.«131749_j69277822484763_1_alg».proof.Proof.RefRead
import Idealize.ShloMosaic.Lib.StableHlo.Run

set_option maxRecDepth 16384

noncomputable section

namespace Cert.RefValue

open Idealize.ShloMosaic Idealize.ShloMosaic.TcCoe Idealize.SL.Sem Idealize.ShloMosaic.StableHlo
open Cert.ReferenceIdeal Cert.ReferenceIdeal.Gen Cert.ReferenceIdeal.Value Cert.ReferenceIdeal.Read

/-! ## A fold over a list cut in two -/

/-- The fold of a concatenation is the fold of the second list over the fold of the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- A fold cut after its first `n` operations. -/
theorem after_split {τ : Topo} {sig : RefSig} {Val : EltTy → Type} (n : Nat) (l : List (HloOp τ sig Val)) (V : Valuation τ sig Val) :
    after l V = after (l.drop n) (after (l.take n) V) := by
  conv_lhs => rw [← List.take_append_drop n l]
  exact after_append _ _ _

/-! ## A typed reference's casts -/

/-- Contents carried to a typed reference's buffer and back are unchanged. -/
theorem ofBuf_toBuf {sig : RefSig} {Val : EltTy → Type} {T : BufTy} (x : TRef sig T) (v : T.Contents Val) :
    x.ofBuf (x.toBuf v) = v := by
  obtain ⟨r, rfl, _, _⟩ := x
  rfl

variable {F : FTy → Type} [FloatOps F]

/-! ## The stretches of @main -/

/-- The edge lists with the self-loops appended, the degrees, their mask and inverse square roots: 18 operations. -/
abbrev sA : List (HloOp τ sig (Elt F)) := (ops (F := F)).take 18
abbrev rA : List (HloOp τ sig (Elt F)) := (ops (F := F)).drop 18
/-- The inverse square root where the degree is positive: 3 operations. -/
abbrev sB : List (HloOp τ sig (Elt F)) := (rA (F := F)).take 3
abbrev rB : List (HloOp τ sig (Elt F)) := (rA (F := F)).drop 3
/-- Every edge's normalisation: 19 operations. -/
abbrev sC : List (HloOp τ sig (Elt F)) := (rB (F := F)).take 19
abbrev rC : List (HloOp τ sig (Elt F)) := (rB (F := F)).drop 19
/-- The first transform and its aggregation: 17 operations. -/
abbrev sD : List (HloOp τ sig (Elt F)) := (rC (F := F)).take 17
abbrev rD : List (HloOp τ sig (Elt F)) := (rC (F := F)).drop 17
/-- Bias, positive part, the second transform: 7 operations. -/
abbrev sE : List (HloOp τ sig (Elt F)) := (rD (F := F)).take 7
abbrev rE : List (HloOp τ sig (Elt F)) := (rD (F := F)).drop 7
/-- The second aggregation: 16 operations. -/
abbrev sG : List (HloOp τ sig (Elt F)) := (rE (F := F)).take 16
abbrev rG : List (HloOp τ sig (Elt F)) := (rE (F := F)).drop 16
/-- The second bias: 3 operations. -/
abbrev sH0 : List (HloOp τ sig (Elt F)) := (rG (F := F)).take 3
abbrev rH0 : List (HloOp τ sig (Elt F)) := (rG (F := F)).drop 3
/-- Each row's maximum: 5 operations. -/
abbrev sH1 : List (HloOp τ sig (Elt F)) := (rH0 (F := F)).take 5
abbrev rH1 : List (HloOp τ sig (Elt F)) := (rH0 (F := F)).drop 5
/-- The rows shifted by their maxima: 3 operations. -/
abbrev sH2 : List (HloOp τ sig (Elt F)) := (rH1 (F := F)).take 3
abbrev rH2 : List (HloOp τ sig (Elt F)) := (rH1 (F := F)).drop 3
/-- Each row's sum of exponentials: 3 operations. -/
abbrev sH3 : List (HloOp τ sig (Elt F)) := (rH2 (F := F)).take 3
/-- The logarithm of the sums subtracted: the last 4 operations. -/
abbrev sH4 : List (HloOp τ sig (Elt F)) := (rH2 (F := F)).drop 3

/-- @main's fold is the seven stretches' folds, one over the other. -/
theorem after_ops (W : Valuation τ sig (Elt F)) :
    after (ops (F := F)) W = after sH4 (after sH3 (after sH2 (after sH1 (after sH0 (after sG (after sE (after sD (after sC (after sB (after sA W)))))))))) := by
  rw [after_split 18 (ops (F := F)) W, after_split 3 (rA (F := F)), after_split 19 (rB (F := F)),
    after_split 17 (rC (F := F)), after_split 7 (rD (F := F)), after_split 16 (rE (F := F)),
    after_split 3 (rG (F := F)), after_split 5 (rH0 (F := F)), after_split 3 (rH1 (F := F)), after_split 3 (rH2 (F := F))]

variable (W : Valuation τ sig (Elt F))

set_option maxHeartbeats 4000000 in
theorem stretchA :
    after (sA (F := F)) W (Proc.devRef .tc main_v5) = val_main_v5 (F := F) (W (Proc.devRef .tc main_arg1))
      ∧ after (sA (F := F)) W (Proc.devRef .tc main_v6) = val_main_v6 (F := F) (W (Proc.devRef .tc main_arg1))
      ∧ after (sA (F := F)) W (Proc.devRef .tc main_v12) = val_main_v12 (F := F) (W (Proc.devRef .tc main_arg1))
      ∧ after (sA (F := F)) W (Proc.devRef .tc main_v13) = val_main_v13 (F := F) (W (Proc.devRef .tc main_arg1))
      ∧ after (sA (F := F)) W (Proc.devRef .tc main_cst_2) = val_main_cst_2 (F := F)
      ∧ after (sA (F := F)) W (Proc.devRef .tc main_arg0) = W (Proc.devRef .tc main_arg0)
      ∧ after (sA (F := F)) W (Proc.devRef .tc main_arg2) = W (Proc.devRef .tc main_arg2)
      ∧ after (sA (F := F)) W (Proc.devRef .tc main_arg3) = W (Proc.devRef .tc main_arg3)
      ∧ after (sA (F := F)) W (Proc.devRef .tc main_arg4) = W (Proc.devRef .tc main_arg4)
      ∧ after (sA (F := F)) W (Proc.devRef .tc main_arg5) = W (Proc.devRef .tc main_arg5) := by
  simp only [sA, rA, sB, rB, sC, rC, sD, rD, sE, rE, sG, rG, sH0, rH0, sH1, rH1, sH2, rH2, sH3, sH4, ops, List.take_succ_cons, List.take_zero, List.drop_succ_cons, List.drop_zero]
  refine ⟨?_, ?_, ?_, ?_, ?_, ?_, ?_, ?_, ?_, ?_⟩
  · after_results; rfl
  · after_results; rfl
  · after_results; rfl
  · after_results; rfl
  · after_results; rfl
  · after_results
  · after_results
  · after_results
  · after_results
  · after_results

set_option maxHeartbeats 4000000 in
theorem stretchB (x1 : (⟨S2x1600000, .i32⟩ : BufTy).Contents (Elt F))
    (h12 : W (Proc.devRef .tc main_v12) = val_main_v12 (F := F) x1) (h13 : W (Proc.devRef .tc main_v13) = val_main_v13 (F := F) x1)
    (hc : W (Proc.devRef .tc main_cst_2) = val_main_cst_2 (F := F)) :
    after (sB (F := F)) W (Proc.devRef .tc main_v14) = val_main_v14 (F := F) x1
      ∧ after (sB (F := F)) W (Proc.devRef .tc main_v5) = W (Proc.devRef .tc main_v5)
      ∧ after (sB (F := F)) W (Proc.devRef .tc main_v6) = W (Proc.devRef .tc main_v6)
      ∧ after (sB (F := F)) W (Proc.devRef .tc main_arg0) = W (Proc.devRef .tc main_arg0)
      ∧ after (sB (F := F)) W (Proc.devRef .tc main_arg2) = W (Proc.devRef .tc main_arg2)
      ∧ after (sB (F := F)) W (Proc.devRef .tc main_arg3) = W (Proc.devRef .tc main_arg3)
      ∧ after (sB (F := F)) W (Proc.devRef .tc main_arg4) = W (Proc.devRef .tc main_arg4)
      ∧ after (sB (F := F)) W (Proc.devRef .tc main_arg5) = W (Proc.devRef .tc main_arg5) := by
  simp only [sA, rA, sB, rB, sC, rC, sD, rD, sE, rE, sG, rG, sH0, rH0, sH1, rH1, sH2, rH2, sH3, sH4, ops, List.take_succ_cons, List.take_zero, List.drop_succ_cons, List.drop_zero]
  refine ⟨?_, ?_, ?_, ?_, ?_, ?_, ?_, ?_⟩
  · after_results; rw [h12, h13, hc]; rfl
  · after_results
  · after_results
  · after_results
  · after_results
  · after_results
  · after_results
  · after_results

set_option maxHeartbeats 4000000 in
theorem stretchC (x1 : (⟨S2x1600000, .i32⟩ : BufTy).Contents (Elt F))
    (h5 : W (Proc.devRef .tc main_v5) = val_main_v5 (F := F) x1) (h6 : W (Proc.devRef .tc main_v6) = val_main_v6 (F := F) x1)
    (h14 : W (Proc.devRef .tc main_v14) = val_main_v14 (F := F) x1) :
    after (sC (F := F)) W (Proc.devRef .tc main_v29) = val_main_v29 (F := F) x1
      ∧ after (sC (F := F)) W (Proc.devRef .tc main_v5) = W (Proc.devRef .tc main_v5)
      ∧ after (sC (F := F)) W (Proc.devRef .tc main_v6) = W (Proc.devRef .tc main_v6)
      ∧ after (sC (F := F)) W (Proc.devRef .tc main_arg0) = W (Proc.devRef .tc main_arg0)
      ∧ after (sC (F := F)) W (Proc.devRef .tc main_arg2) = W (Proc.devRef .tc main_arg2)
      ∧ after (sC (F := F)) W (Proc.devRef .tc main_arg3) = W (Proc.devRef .tc main_arg3)
      ∧ after (sC (F := F)) W (Proc.devRef .tc main_arg4) = W (Proc.devRef .tc main_arg4)
      ∧ after (sC (F := F)) W (Proc.devRef .tc main_arg5) = W (Proc.devRef .tc main_arg5) := by
  simp only [sA, rA, sB, rB, sC, rC, sD, rD, sE, rE, sG, rG, sH0, rH0, sH1, rH1, sH2, rH2, sH3, sH4, ops, List.take_succ_cons, List.take_zero, List.drop_succ_cons, List.drop_zero]
  refine ⟨?_, ?_, ?_, ?_, ?_, ?_, ?_, ?_⟩
  · after_results_simp; rw [h5, h6, h14]; rfl
  · after_results
  · after_results
  · after_results
  · after_results
  · after_results
  · after_results
  · after_results

set_option maxHeartbeats 4000000 in
theorem stretchD (x0 : (⟨S100000x512, .f32⟩ : BufTy).Contents (Elt F)) (x1 : (⟨S2x1600000, .i32⟩ : BufTy).Contents (Elt F)) (x2 : (⟨S512x128, .f32⟩ : BufTy).Contents (Elt F))
    (h0 : W (Proc.devRef .tc main_arg0) = x0) (h2 : W (Proc.devRef .tc main_arg2) = x2)
    (h5 : W (Proc.devRef .tc main_v5) = val_main_v5 (F := F) x1) (h6 : W (Proc.devRef .tc main_v6) = val_main_v6 (F := F) x1)
    (h29 : W (Proc.devRef .tc main_v29) = val_main_v29 (F := F) x1) :
    after (sD (F := F)) W (Proc.devRef .tc main_v43) = val_main_v43 (F := F) x0 x1 x2
      ∧ after (sD (F := F)) W (Proc.devRef .tc main_v5) = W (Proc.devRef .tc main_v5)
      ∧ after (sD (F := F)) W (Proc.devRef .tc main_v6) = W (Proc.devRef .tc main_v6)
      ∧ after (sD (F := F)) W (Proc.devRef .tc main_v29) = W (Proc.devRef .tc main_v29)
      ∧ after (sD (F := F)) W (Proc.devRef .tc main_arg3) = W (Proc.devRef .tc main_arg3)
      ∧ after (sD (F := F)) W (Proc.devRef .tc main_arg4) = W (Proc.devRef .tc main_arg4)
      ∧ after (sD (F := F)) W (Proc.devRef .tc main_arg5) = W (Proc.devRef .tc main_arg5) := by
  simp only [sA, rA, sB, rB, sC, rC, sD, rD, sE, rE, sG, rG, sH0, rH0, sH1, rH1, sH2, rH2, sH3, sH4, ops, List.take_succ_cons, List.take_zero, List.drop_succ_cons, List.drop_zero]
  refine ⟨?_, ?_, ?_, ?_, ?_, ?_, ?_⟩
  · after_results_simp; rw [h0, h2, h5, h6, h29]; rfl
  · after_results
  · after_results
  · after_results
  · after_results
  · after_results
  · after_results

set_option maxHeartbeats 4000000 in
theorem stretchE (x0 : (⟨S100000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F)) (x4 : (⟨S128x64, .f32⟩ : BufTy).Contents (Elt F))
    (h43 : W (Proc.devRef .tc main_v43) = val_main_v43 (F := F) x0 x1 x2)
    (h3 : W (Proc.devRef .tc main_arg3) = x3) (h4 : W (Proc.devRef .tc main_arg4) = x4) :
    after (sE (F := F)) W (Proc.devRef .tc main_v48) = val_main_v48 (F := F) x0 x1 x2 x3 x4
      ∧ after (sE (F := F)) W (Proc.devRef .tc main_v5) = W (Proc.devRef .tc main_v5)
      ∧ after (sE (F := F)) W (Proc.devRef .tc main_v6) = W (Proc.devRef .tc main_v6)
      ∧ after (sE (F := F)) W (Proc.devRef .tc main_v29) = W (Proc.devRef .tc main_v29)
      ∧ after (sE (F := F)) W (Proc.devRef .tc main_arg5) = W (Proc.devRef .tc main_arg5) := by
  simp only [sA, rA, sB, rB, sC, rC, sD, rD, sE, rE, sG, rG, sH0, rH0, sH1, rH1, sH2, rH2, sH3, sH4, ops, List.take_succ_cons, List.take_zero, List.drop_succ_cons, List.drop_zero]
  refine ⟨?_, ?_, ?_, ?_, ?_⟩
  · after_results; rw [h43, h3, h4]; rfl
  · after_results
  · after_results
  · after_results
  · after_results

set_option maxHeartbeats 4000000 in
theorem stretchG (x0 : (⟨S100000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F)) (x4 : (⟨S128x64, .f32⟩ : BufTy).Contents (Elt F))
    (h48 : W (Proc.devRef .tc main_v48) = val_main_v48 (F := F) x0 x1 x2 x3 x4)
    (h5 : W (Proc.devRef .tc main_v5) = val_main_v5 (F := F) x1) (h6 : W (Proc.devRef .tc main_v6) = val_main_v6 (F := F) x1)
    (h29 : W (Proc.devRef .tc main_v29) = val_main_v29 (F := F) x1) :
    after (sG (F := F)) W (Proc.devRef .tc main_v61) = val_main_v61 (F := F) x0 x1 x2 x3 x4
      ∧ after (sG (F := F)) W (Proc.devRef .tc main_arg5) = W (Proc.devRef .tc main_arg5) := by
  simp only [sA, rA, sB, rB, sC, rC, sD, rD, sE, rE, sG, rG, sH0, rH0, sH1, rH1, sH2, rH2, sH3, sH4, ops, List.take_succ_cons, List.take_zero, List.drop_succ_cons, List.drop_zero]
  refine ⟨?_, ?_⟩
  · after_results_simp; rw [h48, h5, h6, h29]; rfl
  · after_results

set_option maxHeartbeats 4000000 in
theorem stretchH0 (x0 : (⟨S100000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (h61 : W (Proc.devRef .tc main_v61) = val_main_v61 (F := F) x0 x1 x2 x3 x4) (h5' : W (Proc.devRef .tc main_arg5) = x5) :
    after (sH0 (F := F)) W (Proc.devRef .tc main_v64) = val_main_v64 (F := F) x0 x1 x2 x3 x4 x5 := by
  simp only [sA, rA, sB, rB, sC, rC, sD, rD, sE, rE, sG, rG, sH0, rH0, sH1, rH1, sH2, rH2, sH3, sH4, ops, List.take_succ_cons, List.take_zero, List.drop_succ_cons, List.drop_zero]
  after_results; rw [h61, h5']; rfl

set_option maxHeartbeats 4000000 in
theorem stretchH1 (x0 : (⟨S100000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (h64 : W (Proc.devRef .tc main_v64) = val_main_v64 (F := F) x0 x1 x2 x3 x4 x5) :
    after (sH1 (F := F)) W (Proc.devRef .tc main_call2_v2) = val_main_call2_v2 (F := F) x0 x1 x2 x3 x4 x5
      ∧ after (sH1 (F := F)) W (Proc.devRef .tc main_v64) = W (Proc.devRef .tc main_v64) := by
  simp only [sA, rA, sB, rB, sC, rC, sD, rD, sE, rE, sG, rG, sH0, rH0, sH1, rH1, sH2, rH2, sH3, sH4, ops, List.take_succ_cons, List.take_zero, List.drop_succ_cons, List.drop_zero]
  refine ⟨?_, ?_⟩
  · after_results; rw [h64]
    simp only [ofBuf_toBuf]
    rfl
  · after_results

set_option maxHeartbeats 4000000 in
theorem stretchH2 (x0 : (⟨S100000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (h2 : W (Proc.devRef .tc main_call2_v2) = val_main_call2_v2 (F := F) x0 x1 x2 x3 x4 x5)
    (h64 : W (Proc.devRef .tc main_v64) = val_main_v64 (F := F) x0 x1 x2 x3 x4 x5) :
    after (sH2 (F := F)) W (Proc.devRef .tc main_call2_v5) = val_main_call2_v5 (F := F) x0 x1 x2 x3 x4 x5 := by
  simp only [sA, rA, sB, rB, sC, rC, sD, rD, sE, rE, sG, rG, sH0, rH0, sH1, rH1, sH2, rH2, sH3, sH4, ops, List.take_succ_cons, List.take_zero, List.drop_succ_cons, List.drop_zero]
  after_results; rw [h2, h64]; rfl

set_option maxHeartbeats 4000000 in
theorem stretchH3 (x0 : (⟨S100000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (h5c : W (Proc.devRef .tc main_call2_v5) = val_main_call2_v5 (F := F) x0 x1 x2 x3 x4 x5) :
    after (sH3 (F := F)) W (Proc.devRef .tc main_call2_v7) = val_main_call2_v7 (F := F) x0 x1 x2 x3 x4 x5
      ∧ after (sH3 (F := F)) W (Proc.devRef .tc main_call2_v5) = W (Proc.devRef .tc main_call2_v5) := by
  simp only [sA, rA, sB, rB, sC, rC, sD, rD, sE, rE, sG, rG, sH0, rH0, sH1, rH1, sH2, rH2, sH3, sH4, ops, List.take_succ_cons, List.take_zero, List.drop_succ_cons, List.drop_zero]
  refine ⟨?_, ?_⟩
  · after_results; rw [h5c]; rfl
  · after_results

set_option maxHeartbeats 4000000 in
theorem stretchH4 (x0 : (⟨S100000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (h7 : W (Proc.devRef .tc main_call2_v7) = val_main_call2_v7 (F := F) x0 x1 x2 x3 x4 x5)
    (h5c : W (Proc.devRef .tc main_call2_v5) = val_main_call2_v5 (F := F) x0 x1 x2 x3 x4 x5) :
    after (sH4 (F := F)) W (Proc.devRef .tc main_v65) = val_main_v65 (F := F) x0 x1 x2 x3 x4 x5 := by
  simp only [sA, rA, sB, rB, sC, rC, sD, rD, sE, rE, sG, rG, sH0, rH0, sH1, rH1, sH2, rH2, sH3, sH4, ops, List.take_succ_cons, List.take_zero, List.drop_succ_cons, List.drop_zero]
  after_results; rw [h7, h5c]; rfl

/-! ## The chain -/

/-- The fold of @main at the result buffer is the last stage of the launch contents of the arguments. -/
theorem out_eq :
    after (ops (F := F)) W (Proc.devRef .tc main_v65)
      = val_main_v65 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [after_ops]
  obtain ⟨a5, a6, a12, a13, ac, a0, a2, a3, a4, a5'⟩ := stretchA (F := F) W
  obtain ⟨b14, b5, b6, b0, b2, b3, b4, b5'⟩ := stretchB (F := F) (after sA W) _ a12 a13 ac
  obtain ⟨c29, c5, c6, c0, c2, c3, c4, c5'⟩ := stretchC (F := F) (after sB (after sA W)) _ (b5.trans a5) (b6.trans a6) b14
  obtain ⟨d43, d5, d6, d29, d3, d4, d5'⟩ := stretchD (F := F) (after sC (after sB (after sA W))) _ _ _
    ((c0.trans b0).trans a0) ((c2.trans b2).trans a2) (c5.trans (b5.trans a5)) (c6.trans (b6.trans a6)) c29
  obtain ⟨e48, e5, e6, e29, e5'⟩ := stretchE (F := F) (after sD (after sC (after sB (after sA W)))) _ _ _ _ _ d43
    (d3.trans ((c3.trans b3).trans a3)) (d4.trans ((c4.trans b4).trans a4))
  obtain ⟨g61, g5'⟩ := stretchG (F := F) (after sE (after sD (after sC (after sB (after sA W))))) _ _ _ _ _ e48
    (e5.trans (d5.trans (c5.trans (b5.trans a5)))) (e6.trans (d6.trans (c6.trans (b6.trans a6)))) (e29.trans (d29.trans c29))
  have k64 := stretchH0 (F := F) (after sG (after sE (after sD (after sC (after sB (after sA W)))))) _ _ _ _ _ _ g61
    (g5'.trans (e5'.trans (d5'.trans ((c5'.trans b5').trans a5'))))
  obtain ⟨k2, k64'⟩ := stretchH1 (F := F) (after sH0 (after sG (after sE (after sD (after sC (after sB (after sA W))))))) _ _ _ _ _ _ k64
  have k5 := stretchH2 (F := F) (after sH1 (after sH0 (after sG (after sE (after sD (after sC (after sB (after sA W)))))))) _ _ _ _ _ _ k2 (k64'.trans k64)
  obtain ⟨k7, k5'⟩ := stretchH3 (F := F) (after sH2 (after sH1 (after sH0 (after sG (after sE (after sD (after sC (after sB (after sA W))))))))) _ _ _ _ _ _ k5
  exact stretchH4 (F := F) (after sH3 (after sH2 (after sH1 (after sH0 (after sG (after sE (after sD (after sC (after sB (after sA W)))))))))) _ _ _ _ _ _ k7 (k5'.trans k5)

/-! ## No operation writes an argument -/

set_option maxHeartbeats 4000000 in
theorem kept_arg0 : after (ops (F := F)) W (Proc.devRef .tc main_arg0) = W (Proc.devRef .tc main_arg0) := by
  after_results_simp <;> rfl
set_option maxHeartbeats 4000000 in
theorem kept_arg1 : after (ops (F := F)) W (Proc.devRef .tc main_arg1) = W (Proc.devRef .tc main_arg1) := by
  after_results_simp <;> rfl
set_option maxHeartbeats 4000000 in
theorem kept_arg2 : after (ops (F := F)) W (Proc.devRef .tc main_arg2) = W (Proc.devRef .tc main_arg2) := by
  after_results_simp <;> rfl
set_option maxHeartbeats 4000000 in
theorem kept_arg3 : after (ops (F := F)) W (Proc.devRef .tc main_arg3) = W (Proc.devRef .tc main_arg3) := by
  after_results_simp <;> rfl
set_option maxHeartbeats 4000000 in
theorem kept_arg4 : after (ops (F := F)) W (Proc.devRef .tc main_arg4) = W (Proc.devRef .tc main_arg4) := by
  after_results_simp <;> rfl
set_option maxHeartbeats 4000000 in
theorem kept_arg5 : after (ops (F := F)) W (Proc.devRef .tc main_arg5) = W (Proc.devRef .tc main_arg5) := by
  after_results_simp <;> rfl

/-! ## The run -/

/-- Every weakly fair execution of the reference's @main terminates with the result buffer at the last stage of the
    argument arrays as launched, and those arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (out_eq (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c))⟩)
    (run_fold m ρ)

end Cert.RefValue

end
-- ==== Proof.lean ====
/-
  A two-layer graph convolution with a row-wise log-softmax, certified against its jnp reference over the extended reals.

  Both programs append the self-loops to the edge list, count degrees by a scatter-add of ones, normalise every edge
  by `deg^(-1/2)` at both its ends, and then, twice: transform the node features by a matrix, gather the transformed
  rows at the edges' sources, scale them, and scatter-add them at the targets. The kernel does the dense parts — the two
  matrix products, "add the bias and keep the positive part", "add the bias and take the log-softmax of each row" — in
  four grid-tiled regions over blocks of 5000 rows; the reference does them as whole-array host operations. On the
  extended reals these agree entry by entry, with no appeal to finiteness: a row block of a matrix product is the
  same sum over the contracted coordinate read through the block; a change of float format is the identity; the
  row-wise passes act on each row by itself, and the rows of a block are rows of the array; and the reference's
  `max(-∞, row maximum)` is the row maximum. Everything between the dense parts is the same host text in both
  programs, and is carried as such.

  * the frames of the two kernel programs are the generated ones; the reference's is its run with the result dropped;
  * the ideal pass rewrote nothing, so `preserves` is `True`;
  * `algebraic`: the kernel's run ends with its result buffer at the last segment boundary's contents, which the
    chain through the nine boundaries identifies with the reference's last stage `val_main_v65` of the argument
    arrays; the reference's fold is read to the same stage of its own arguments, which agree.
-/
import proofs.«131749_j69277822484763_1_alg».proof.Defs
import proofs.«131749_j69277822484763_1_alg».proof.Proof.Gen.Kernel
import proofs.«131749_j69277822484763_1_alg».proof.Proof.Gen.Kernel.Skeleton
import proofs.«131749_j69277822484763_1_alg».proof.Proof.Gen.Kernel.Launch
import proofs.«131749_j69277822484763_1_alg».proof.Proof.Gen.Kernel.Points
import proofs.«131749_j69277822484763_1_alg».proof.Proof.Gen.Kernel.Frame
import proofs.«131749_j69277822484763_1_alg».proof.Proof.Gen.KernelIdeal
import proofs.«131749_j69277822484763_1_alg».proof.Proof.Gen.KernelIdeal.Skeleton
import proofs.«131749_j69277822484763_1_alg».proof.Proof.Gen.KernelIdeal.Launch
import proofs.«131749_j69277822484763_1_alg».proof.Proof.Gen.KernelIdeal.Points
import proofs.«131749_j69277822484763_1_alg».proof.Proof.Gen.KernelIdeal.Frame
import proofs.«131749_j69277822484763_1_alg».proof.Proof.Gen.ReferenceIdeal
import proofs.«131749_j69277822484763_1_alg».proof.Proof.Gen.Pre_finite_inputs
import proofs.«131749_j69277822484763_1_alg».proof.Proof.KernelRun
import proofs.«131749_j69277822484763_1_alg».proof.Proof.KernelValue
import proofs.«131749_j69277822484763_1_alg».proof.Proof.RefValue
import Idealize.ShloMosaic.Adequacy
import Idealize.ShloMosaic.Init

noncomputable section

namespace Cert.Proof

open Idealize.ShloMosaic Idealize.SL.Sem

namespace Claims

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference's frame: its run, the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.RefValue.run (F := Ideal) m ρ)

/-- Both runs end with their result at the reference's last stage of the kernel's argument arrays: the kernel's by the
    chain through its nine boundaries, the reference's by its fold, its own arguments being the kernel's. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v65 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelValue.out_eq m ρ c), (h c).2⟩)
      (Cert.KernelIdeal.Gen.run_out (F := Ideal) m ρ)
  · refine (θ_run Cert.ReferenceIdeal.defs _ _).mono (fun _ h c => ⟨(h c).1.trans ?_, (h c).2⟩)
      (Cert.RefValue.run (F := Ideal) m' ρ')
    rw [(hagree c).1, (hagree c).2.1, (hagree c).2.2.1, (hagree c).2.2.2.1, (hagree c).2.2.2.2.1, (hagree c).2.2.2.2.2]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
